-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x64 : Shape := ⟨2, ![65536, 64]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S2x1048576 : Shape := ⟨2, ![2, 1048576]⟩
abbrev S_ : Shape := ⟨0, ![]⟩

class Facts : Prop where
  bcast_S_S65536x64 : S_.BroadcastsInDim S65536x64 (![] : Fin 0 → Fin S65536x64.rank)
  reducesTo_S65536x64_S_d0_1 : S65536x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128 .f32) (main_arg5 : FVec F S128x64 .f32) (main_arg6 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S65536x64 .f32) (main_arg1 : FVec F S64x128 .f32) (main_arg2 : FVec F S128 .f32) (main_arg3 : FVec F S128x128 .f32) (main_arg4 : FVec F S128 .f32) (main_arg5 : FVec F S128x64 .f32) (main_arg6 : FVec F S64 .f32) (main_arg7 : IVec S2x1048576 32) : IVec S_ 1 :=
  let main_v0 : FVec F S65536x64 .f32 := Host.absf main_arg0
  let main_cst : FVec F S_ .f32 := constant S_ .f32 0x7F800000#32
  let main_v1 : FVec F S65536x64 .f32 := broadcastInDim S65536x64 ![] bcast_S_S65536x64 main_cst
  let main_v2 : IVec S65536x64 1 := cmpf .olt main_v0 main_v1
  let main_c : IVec S_ 1 := constantI S_ 1 1#1
  let main_v3 : IVec S_ 1 := (fun x v => Host.reduce IntOp.andi x v reducesTo_S65536x64_S_d0_1 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S65536x64 : Shape := ⟨2, ![65536, 64]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S2x1048576 : Shape := ⟨2, ![2, 1048576]⟩
abbrev S65536 : Shape := ⟨1, ![65536]⟩
abbrev S1x1048576 : Shape := ⟨2, ![1, 1048576]⟩
abbrev S1048576 : Shape := ⟨1, ![1048576]⟩
abbrev S1114112 : Shape := ⟨1, ![1114112]⟩
abbrev S_ : Shape := ⟨0, ![]⟩
abbrev S1114112x1 : Shape := ⟨2, ![1114112, 1]⟩
abbrev S65536x128 : Shape := ⟨2, ![65536, 128]⟩
abbrev S4096x64 : Shape := ⟨2, ![4096, 64]⟩
abbrev S4096x128 : Shape := ⟨2, ![4096, 128]⟩
abbrev S1114112x128 : Shape := ⟨2, ![1114112, 128]⟩
abbrev S1x128 : Shape := ⟨2, ![1, 128]⟩
abbrev S1114112x64 : Shape := ⟨2, ![1114112, 64]⟩
abbrev S1x64 : Shape := ⟨2, ![1, 64]⟩

abbrev nBuf : Space → Nat
  | .hbm => 105
  | .vmem => 30
  | .smem => 0
  | _ => 0

abbrev bufTy : (tb : Table) → Fin (tcTables nBuf tb) → BufTy
  | .hbm, ⟨0, _⟩ => ⟨S65536x64, .f32⟩
  | .hbm, ⟨1, _⟩ => ⟨S64x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S2x1048576, .i32⟩
  | .hbm, ⟨8, _⟩ => ⟨S65536, .i32⟩
  | .hbm, ⟨9, _⟩ => ⟨S1x1048576, .i32⟩
  | .hbm, ⟨10, _⟩ => ⟨S1048576, .i32⟩
  | .hbm, ⟨11, _⟩ => ⟨S1114112, .i32⟩
  | .hbm, ⟨12, _⟩ => ⟨S1x1048576, .i32⟩
  | .hbm, ⟨13, _⟩ => ⟨S1048576, .i32⟩
  | .hbm, ⟨14, _⟩ => ⟨S1114112, .i32⟩
  | .hbm, ⟨15, _⟩ => ⟨S_, .f32⟩
  | .hbm, ⟨16, _⟩ => ⟨S1114112, .f32⟩
  | .hbm, ⟨17, _⟩ => ⟨S_, .f32⟩
  | .hbm, ⟨18, _⟩ => ⟨S65536, .f32⟩
  | .hbm, ⟨19, _⟩ => ⟨S1114112x1, .i32⟩
  | .hbm, ⟨20, _⟩ => ⟨S65536, .f32⟩
  | .hbm, ⟨21, _⟩ => ⟨S_, .f32⟩
  | .hbm, ⟨22, _⟩ => ⟨S65536, .f32⟩
  | .hbm, ⟨23, _⟩ => ⟨S65536, .i1⟩
  | .hbm, ⟨24, _⟩ => ⟨S65536, .f32⟩
  | .hbm, ⟨25, _⟩ => ⟨S_, .f32⟩
  | .hbm, ⟨26, _⟩ => ⟨S_, .f32⟩
  | .hbm, ⟨27, _⟩ => ⟨S65536, .f32⟩
  | .hbm, ⟨28, _⟩ => ⟨S65536, .f32⟩
  | .hbm, ⟨29, _⟩ => ⟨S_, .i32⟩
  | .hbm, ⟨30, _⟩ => ⟨S1114112, .i32⟩
  | .hbm, ⟨31, _⟩ => ⟨S1114112, .i1⟩
  | .hbm, ⟨32, _⟩ => ⟨S_, .i32⟩
  | .hbm, ⟨33, _⟩ => ⟨S1114112, .i32⟩
  | .hbm, ⟨34, _⟩ => ⟨S1114112, .i32⟩
  | .hbm, ⟨35, _⟩ => ⟨S1114112, .i32⟩
  | .hbm, ⟨36, _⟩ => ⟨S1114112x1, .i32⟩
  | .hbm, ⟨37, _⟩ => ⟨S1114112, .f32⟩
  | .hbm, ⟨38, _⟩ => ⟨S_, .i32⟩
  | .hbm, ⟨39, _⟩ => ⟨S1114112, .i32⟩
  | .hbm, ⟨40, _⟩ => ⟨S1114112, .i1⟩
  | .hbm, ⟨41, _⟩ => ⟨S_, .i32⟩
  | .hbm, ⟨42, _⟩ => ⟨S1114112, .i32⟩
  | .hbm, ⟨43, _⟩ => ⟨S1114112, .i32⟩
  | .hbm, ⟨44, _⟩ => ⟨S1114112, .i32⟩
  | .hbm, ⟨45, _⟩ => ⟨S1114112x1, .i32⟩
  | .hbm, ⟨46, _⟩ => ⟨S1114112, .f32⟩
  | .hbm, ⟨47, _⟩ => ⟨S1114112, .f32⟩
  | .hbm, ⟨48, _⟩ => ⟨S65536x128, .f32⟩
  | .hbm, ⟨49, _⟩ => ⟨S_, .i32⟩
  | .hbm, ⟨50, _⟩ => ⟨S1114112, .i32⟩
  | .hbm, ⟨51, _⟩ => ⟨S1114112, .i1⟩
  | .hbm, ⟨52, _⟩ => ⟨S_, .i32⟩
  | .hbm, ⟨53, _⟩ => ⟨S1114112, .i32⟩
  | .hbm, ⟨54, _⟩ => ⟨S1114112, .i32⟩
  | .hbm, ⟨55, _⟩ => ⟨S1114112, .i32⟩
  | .hbm, ⟨56, _⟩ => ⟨S1114112x1, .i32⟩
  | .hbm, ⟨57, _⟩ => ⟨S1114112x128, .f32⟩
  | .hbm, ⟨58, _⟩ => ⟨S1114112x1, .f32⟩
  | .hbm, ⟨59, _⟩ => ⟨S1114112x128, .f32⟩
  | .hbm, ⟨60, _⟩ => ⟨S1114112x128, .f32⟩
  | .hbm, ⟨61, _⟩ => ⟨S_, .f32⟩
  | .hbm, ⟨62, _⟩ => ⟨S65536x128, .f32⟩
  | .hbm, ⟨63, _⟩ => ⟨S1114112x1, .i32⟩
  | .hbm, ⟨64, _⟩ => ⟨S65536x128, .f32⟩
  | .hbm, ⟨65, _⟩ => ⟨S1x128, .f32⟩
  | .hbm, ⟨66, _⟩ => ⟨S65536x128, .f32⟩
  | .hbm, ⟨67, _⟩ => ⟨S65536x128, .f32⟩
  | .hbm, ⟨68, _⟩ => ⟨S_, .i32⟩
  | .hbm, ⟨69, _⟩ => ⟨S1114112, .i32⟩
  | .hbm, ⟨70, _⟩ => ⟨S1114112, .i1⟩
  | .hbm, ⟨71, _⟩ => ⟨S_, .i32⟩
  | .hbm, ⟨72, _⟩ => ⟨S1114112, .i32⟩
  | .hbm, ⟨73, _⟩ => ⟨S1114112, .i32⟩
  | .hbm, ⟨74, _⟩ => ⟨S1114112, .i32⟩
  | .hbm, ⟨75, _⟩ => ⟨S1114112x1, .i32⟩
  | .hbm, ⟨76, _⟩ => ⟨S1114112x128, .f32⟩
  | .hbm, ⟨77, _⟩ => ⟨S1114112x1, .f32⟩
  | .hbm, ⟨78, _⟩ => ⟨S1114112x128, .f32⟩
  | .hbm, ⟨79, _⟩ => ⟨S1114112x128, .f32⟩
  | .hbm, ⟨80, _⟩ => ⟨S_, .f32⟩
  | .hbm, ⟨81, _⟩ => ⟨S65536x128, .f32⟩
  | .hbm, ⟨82, _⟩ => ⟨S1114112x1, .i32⟩
  | .hbm, ⟨83, _⟩ => ⟨S65536x128, .f32⟩
  | .hbm, ⟨84, _⟩ => ⟨S1x128, .f32⟩
  | .hbm, ⟨85, _⟩ => ⟨S65536x128, .f32⟩
  | .hbm, ⟨86, _⟩ => ⟨S65536x64, .f32⟩
  | .hbm, ⟨87, _⟩ => ⟨S_, .i32⟩
  | .hbm, ⟨88, _⟩ => ⟨S1114112, .i32⟩
  | .hbm, ⟨89, _⟩ => ⟨S1114112, .i1⟩
  | .hbm, ⟨90, _⟩ => ⟨S_, .i32⟩
  | .hbm, ⟨91, _⟩ => ⟨S1114112, .i32⟩
  | .hbm, ⟨92, _⟩ => ⟨S1114112, .i32⟩
  | .hbm, ⟨93, _⟩ => ⟨S1114112, .i32⟩
  | .hbm, ⟨94, _⟩ => ⟨S1114112x1, .i32⟩
  | .hbm, ⟨95, _⟩ => ⟨S1114112x64, .f32⟩
  | .hbm, ⟨96, _⟩ => ⟨S1114112x1, .f32⟩
  | .hbm, ⟨97, _⟩ => ⟨S1114112x64, .f32⟩
  | .hbm, ⟨98, _⟩ => ⟨S1114112x64, .f32⟩
  | .hbm, ⟨99, _⟩ => ⟨S_, .f32⟩
  | .hbm, ⟨100, _⟩ => ⟨S65536x64, .f32⟩
  | .hbm, ⟨101, _⟩ => ⟨S1114112x1, .i32⟩
  | .hbm, ⟨102, _⟩ => ⟨S65536x64, .f32⟩
  | .hbm, ⟨103, _⟩ => ⟨S1x64, .f32⟩
  | .hbm, ⟨104, _⟩ => ⟨S65536x64, .f32⟩
  | .local _ .vmem, ⟨0, _⟩ => ⟨S4096x64, .f32⟩
  | .local _ .vmem, ⟨1, _⟩ => ⟨S4096x64, .f32⟩
  | .local _ .vmem, ⟨2, _⟩ => ⟨S64x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S1x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S128x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | .local _ .vmem, ⟨17, _⟩ => ⟨S1x128, .f32⟩
  | .local _ .vmem, ⟨18, _⟩ => ⟨S4096x128, .f32⟩
  | .local _ .vmem, ⟨19, _⟩ => ⟨S4096x128, .f32⟩
  | .local _ .vmem, ⟨20, _⟩ => ⟨S4096x128, .f32⟩
  | .local _ .vmem, ⟨21, _⟩ => ⟨S4096x128, .f32⟩
  | .local _ .vmem, ⟨22, _⟩ => ⟨S128x64, .f32⟩
  | .local _ .vmem, ⟨23, _⟩ => ⟨S4096x64, .f32⟩
  | .local _ .vmem, ⟨24, _⟩ => ⟨S4096x64, .f32⟩
  | .local _ .vmem, ⟨25, _⟩ => ⟨S4096x64, .f32⟩
  | .local _ .vmem, ⟨26, _⟩ => ⟨S4096x64, .f32⟩
  | .local _ .vmem, ⟨27, _⟩ => ⟨S1x64, .f32⟩
  | .local _ .vmem, ⟨28, _⟩ => ⟨S4096x64, .f32⟩
  | .local _ .vmem, ⟨29, _⟩ => ⟨S4096x64, .f32⟩
  | _, _ => ⟨S65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_12 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4096x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4096x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4096x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S4096x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![16], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4096x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S4096x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1048576_S1x1048576_0_0 : S2x1048576.Slices ![0, 0] S1x1048576
  shapeCasts_S1x1048576_S1048576 : S1x1048576.ShapeCasts S1048576
  concatenates_S1048576_S65536_S1114112_d0 : Shape.Concatenates [S1048576, S65536] S1114112 0
  slices_S2x1048576_S1x1048576_1_0 : S2x1048576.Slices ![1, 0] S1x1048576
  bcast_S_S1114112 : S_.BroadcastsInDim S1114112 (![] : Fin 0 → Fin S1114112.rank)
  bcast_S_S65536 : S_.BroadcastsInDim S65536 (![] : Fin 0 → Fin S65536.rank)
  bcast_S1114112_S1114112x1_0 : S1114112.BroadcastsInDim S1114112x1 (![0] : Fin 1 → Fin S1114112x1.rank)
  inb_S4096x64_S4096x64_0_0 : ∀ a, (![0, 0] : Fin 2 → Nat) a + S4096x64.size a ≤ S4096x64.size a
  h_S4096x64 : 0 < S4096x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S4096x128_S4096x128_0_0 : ∀ a, (![0, 0] : Fin 2 → Nat) a + S4096x128.size a ≤ S4096x128.size a
  h_S4096x128 : 0 < S4096x128.numel
  bcast_S1114112x1_S1114112x128_0_1 : S1114112x1.BroadcastsInDim S1114112x128 (![0, 1] : Fin 2 → Fin S1114112x128.rank)
  bcast_S_S65536x128 : S_.BroadcastsInDim S65536x128 (![] : Fin 0 → Fin S65536x128.rank)
  shapeCasts_S128_S1x128 : S128.ShapeCasts S1x128
  shapeCasts_S4096x128_S4096x128 : S4096x128.ShapeCasts S4096x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  bcast_S1114112x1_S1114112x64_0_1 : S1114112x1.BroadcastsInDim S1114112x64 (![0, 1] : Fin 2 → Fin S1114112x64.rank)
  bcast_S_S65536x64 : S_.BroadcastsInDim S65536x64 (![] : Fin 0 → Fin S65536x64.rank)
  shapeCasts_S64_S1x64 : S64.ShapeCasts S1x64
  shapeCasts_S4096x64_S4096x64 : S4096x64.ShapeCasts S4096x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  scatter_S65536_S1114112x1_S1114112_n_0_0_1_wf : ScatterDims.WF S65536 S1114112x1 S1114112 [] [0] [0] 1
  gather_S65536_S1114112x1_S1114112_n_0_n_n_0_1_1_wf : GatherDims.WF S65536 S1114112x1 S1114112 [] [0] [] [0] [] 1 ![1]
  dot_S4096x64_S64x128_S4096x128_1_0_0_1_n_n_wf : DotDims.WF S4096x64 S64x128 S4096x128 [1] [0] [0] [1] [] []
  gather_S65536x128_S1114112x1_S1114112x128_1_0_n_n_0_1_1128_wf : GatherDims.WF S65536x128 S1114112x1 S1114112x128 [1] [0] [] [0] [] 1 ![1, 128]
  scatter_S65536x128_S1114112x1_S1114112x128_1_0_0_1_wf : ScatterDims.WF S65536x128 S1114112x1 S1114112x128 [1] [0] [0] 1
  dot_S4096x128_S128x128_S4096x128_1_0_0_1_n_n_wf : DotDims.WF S4096x128 S128x128 S4096x128 [1] [0] [0] [1] [] []
  dot_S4096x128_S128x64_S4096x64_1_0_0_1_n_n_wf : DotDims.WF S4096x128 S128x64 S4096x64 [1] [0] [0] [1] [] []
  gather_S65536x64_S1114112x1_S1114112x64_1_0_n_n_0_1_164_wf : GatherDims.WF S65536x64 S1114112x1 S1114112x64 [1] [0] [] [0] [] 1 ![1, 64]
  scatter_S65536x64_S1114112x1_S1114112x64_1_0_0_1_wf : ScatterDims.WF S65536x64 S1114112x1 S1114112x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S65536x64.size a
  hwx0_0 : ∀ i : grid0.Coords, EltTy.bits .f32 = 32 ∨ (Rect.block (s := S65536x64) S4096x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S65536x128.size a
  hwx0_2 : ∀ i : grid0.Coords, EltTy.bits .f32 = 32 ∨ (Rect.block (s := S65536x128) S4096x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S65536x128.size a
  hwx1_0 : ∀ i : grid1.Coords, EltTy.bits .f32 = 32 ∨ (Rect.block (s := S65536x128) S4096x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x128.size a ≤ S65536x128.size a
  hwx1_2 : ∀ i : grid1.Coords, EltTy.bits .f32 = 32 ∨ (Rect.block (s := S65536x128) S4096x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x128.size a ≤ S65536x128.size a
  hwx2_0 : ∀ i : grid2.Coords, EltTy.bits .f32 = 32 ∨ (Rect.block (s := S65536x128) S4096x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x128.size a ≤ S65536x128.size a
  hwx2_2 : ∀ i : grid2.Coords, EltTy.bits .f32 = 32 ∨ (Rect.block (s := S65536x128) S4096x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x128.size a ≤ S65536x128.size a
  hwx3_0 : ∀ i : grid3.Coords, EltTy.bits .f32 = 32 ∨ (Rect.block (s := S65536x128) S4096x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4096x128.size a ≤ S65536x128.size a
  hwx3_2 : ∀ i : grid3.Coords, EltTy.bits .f32 = 32 ∨ (Rect.block (s := S65536x128) S4096x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x128.size a ≤ S65536x128.size a
  hwx4_0 : ∀ i : grid4.Coords, EltTy.bits .f32 = 32 ∨ (Rect.block (s := S65536x128) S4096x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4096x64.size a ≤ S65536x64.size a
  hwx4_2 : ∀ i : grid4.Coords, EltTy.bits .f32 = 32 ∨ (Rect.block (s := S65536x64) S4096x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4096x64.size a ≤ S65536x64.size a
  hwx5_0 : ∀ i : grid5.Coords, EltTy.bits .f32 = 32 ∨ (Rect.block (s := S65536x64) S4096x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4096x64.size a ≤ S65536x64.size a
  hwx5_2 : ∀ i : grid5.Coords, EltTy.bits .f32 = 32 ∨ (Rect.block (s := S65536x64) S4096x64.size (cc5_transform_2 i) (hinb5_2 i)).WholeWords (EltTy.packing .f32)

variable [Facts₀]

def scatter_S65536_S1114112x1_S1114112_n_0_0_1 : ScatterDims S65536 S1114112x1 S1114112 where
  updateWindowDims := []
  insertedWindowDims := [0]
  scatterDimsToOperandDims := [0]
  indexVectorDim := 1
  wf := scatter_S65536_S1114112x1_S1114112_n_0_0_1_wf
def gather_S65536_S1114112x1_S1114112_n_0_n_n_0_1_1 : GatherDims S65536 S1114112x1 S1114112 where
  offsetDims := []
  collapsedSliceDims := [0]
  operandBatchingDims := []
  startIndicesBatchingDims := []
  startIndexMap := [0]
  indexVectorDim := 1
  sliceSizes := ![1]
  wf := gather_S65536_S1114112x1_S1114112_n_0_n_n_0_1_1_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def gather_S65536x128_S1114112x1_S1114112x128_1_0_n_n_0_1_1128 : GatherDims S65536x128 S1114112x1 S1114112x128 where
  offsetDims := [1]
  collapsedSliceDims := [0]
  operandBatchingDims := []
  startIndicesBatchingDims := []
  startIndexMap := [0]
  indexVectorDim := 1
  sliceSizes := ![1, 128]
  wf := gather_S65536x128_S1114112x1_S1114112x128_1_0_n_n_0_1_1128_wf
def scatter_S65536x128_S1114112x1_S1114112x128_1_0_0_1 : ScatterDims S65536x128 S1114112x1 S1114112x128 where
  updateWindowDims := [1]
  insertedWindowDims := [0]
  scatterDimsToOperandDims := [0]
  indexVectorDim := 1
  wf := scatter_S65536x128_S1114112x1_S1114112x128_1_0_0_1_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def gather_S65536x64_S1114112x1_S1114112x64_1_0_n_n_0_1_164 : GatherDims S65536x64 S1114112x1 S1114112x64 where
  offsetDims := [1]
  collapsedSliceDims := [0]
  operandBatchingDims := []
  startIndicesBatchingDims := []
  startIndexMap := [0]
  indexVectorDim := 1
  sliceSizes := ![1, 64]
  wf := gather_S65536x64_S1114112x1_S1114112x64_1_0_n_n_0_1_164_wf
def scatter_S65536x64_S1114112x1_S1114112x64_1_0_0_1 : ScatterDims S65536x64 S1114112x1 S1114112x64 where
  updateWindowDims := [1]
  insertedWindowDims := [0]
  scatterDimsToOperandDims := [0]
  indexVectorDim := 1
  wf := scatter_S65536x64_S1114112x1_S1114112x64_1_0_0_1_wf

abbrev win0_0 : Pipeline.Window sig grid0 :=
  Pipeline.Window.ofSpec (Memref.whole main_arg0) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S4096x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S4096x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S4096x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S4096x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S4096x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S4096x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S4096x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S4096x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S4096x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S4096x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S65536x64 : Shape := ⟨2, ![65536, 64]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S2x1048576 : Shape := ⟨2, ![2, 1048576]⟩
abbrev S65536 : Shape := ⟨1, ![65536]⟩
abbrev S1x1048576 : Shape := ⟨2, ![1, 1048576]⟩
abbrev S1048576 : Shape := ⟨1, ![1048576]⟩
abbrev S1114112 : Shape := ⟨1, ![1114112]⟩
abbrev S_ : Shape := ⟨0, ![]⟩
abbrev S1114112x1 : Shape := ⟨2, ![1114112, 1]⟩
abbrev S65536x128 : Shape := ⟨2, ![65536, 128]⟩
abbrev S1114112x128 : Shape := ⟨2, ![1114112, 128]⟩
abbrev S1x128 : Shape := ⟨2, ![1, 128]⟩
abbrev S1114112x64 : Shape := ⟨2, ![1114112, 64]⟩
abbrev S1x64 : Shape := ⟨2, ![1, 64]⟩

abbrev nBuf : Space → Nat
  | .hbm => 114
  | .vmem => 0
  | .smem => 0
  | _ => 0

abbrev bufTy : (tb : Table) → Fin (tcTables nBuf tb) → BufTy
  | .hbm, ⟨0, _⟩ => ⟨S65536x64, .f32⟩
  | .hbm, ⟨1, _⟩ => ⟨S64x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S2x1048576, .i32⟩
  | .hbm, ⟨8, _⟩ => ⟨S65536, .i32⟩
  | .hbm, ⟨9, _⟩ => ⟨S1x1048576, .i32⟩
  | .hbm, ⟨10, _⟩ => ⟨S1048576, .i32⟩
  | .hbm, ⟨11, _⟩ => ⟨S1114112, .i32⟩
  | .hbm, ⟨12, _⟩ => ⟨S1x1048576, .i32⟩
  | .hbm, ⟨13, _⟩ => ⟨S1048576, .i32⟩
  | .hbm, ⟨14, _⟩ => ⟨S1114112, .i32⟩
  | .hbm, ⟨15, _⟩ => ⟨S_, .f32⟩
  | .hbm, ⟨16, _⟩ => ⟨S1114112, .f32⟩
  | .hbm, ⟨17, _⟩ => ⟨S_, .f32⟩
  | .hbm, ⟨18, _⟩ => ⟨S65536, .f32⟩
  | .hbm, ⟨19, _⟩ => ⟨S1114112x1, .i32⟩
  | .hbm, ⟨20, _⟩ => ⟨S65536, .f32⟩
  | .hbm, ⟨21, _⟩ => ⟨S_, .f32⟩
  | .hbm, ⟨22, _⟩ => ⟨S65536, .f32⟩
  | .hbm, ⟨23, _⟩ => ⟨S65536, .i1⟩
  | .hbm, ⟨24, _⟩ => ⟨S65536, .f32⟩
  | .hbm, ⟨25, _⟩ => ⟨S_, .f32⟩
  | .hbm, ⟨26, _⟩ => ⟨S_, .f32⟩
  | .hbm, ⟨27, _⟩ => ⟨S65536, .f32⟩
  | .hbm, ⟨28, _⟩ => ⟨S65536, .f32⟩
  | .hbm, ⟨29, _⟩ => ⟨S_, .i32⟩
  | .hbm, ⟨30, _⟩ => ⟨S1114112, .i32⟩
  | .hbm, ⟨31, _⟩ => ⟨S1114112, .i1⟩
  | .hbm, ⟨32, _⟩ => ⟨S_, .i32⟩
  | .hbm, ⟨33, _⟩ => ⟨S1114112, .i32⟩
  | .hbm, ⟨34, _⟩ => ⟨S1114112, .i32⟩
  | .hbm, ⟨35, _⟩ => ⟨S1114112, .i32⟩
  | .hbm, ⟨36, _⟩ => ⟨S1114112x1, .i32⟩
  | .hbm, ⟨37, _⟩ => ⟨S1114112, .f32⟩
  | .hbm, ⟨38, _⟩ => ⟨S_, .i32⟩
  | .hbm, ⟨39, _⟩ => ⟨S1114112, .i32⟩
  | .hbm, ⟨40, _⟩ => ⟨S1114112, .i1⟩
  | .hbm, ⟨41, _⟩ => ⟨S_, .i32⟩
  | .hbm, ⟨42, _⟩ => ⟨S1114112, .i32⟩
  | .hbm, ⟨43, _⟩ => ⟨S1114112, .i32⟩
  | .hbm, ⟨44, _⟩ => ⟨S1114112, .i32⟩
  | .hbm, ⟨45, _⟩ => ⟨S1114112x1, .i32⟩
  | .hbm, ⟨46, _⟩ => ⟨S1114112, .f32⟩
  | .hbm, ⟨47, _⟩ => ⟨S1114112, .f32⟩
  | .hbm, ⟨48, _⟩ => ⟨S65536x128, .f32⟩
  | .hbm, ⟨49, _⟩ => ⟨S_, .i32⟩
  | .hbm, ⟨50, _⟩ => ⟨S1114112, .i32⟩
  | .hbm, ⟨51, _⟩ => ⟨S1114112, .i1⟩
  | .hbm, ⟨52, _⟩ => ⟨S_, .i32⟩
  | .hbm, ⟨53, _⟩ => ⟨S1114112, .i32⟩
  | .hbm, ⟨54, _⟩ => ⟨S1114112, .i32⟩
  | .hbm, ⟨55, _⟩ => ⟨S1114112, .i32⟩
  | .hbm, ⟨56, _⟩ => ⟨S1114112x1, .i32⟩
  | .hbm, ⟨57, _⟩ => ⟨S1114112x128, .f32⟩
  | .hbm, ⟨58, _⟩ => ⟨S1114112x1, .f32⟩
  | .hbm, ⟨59, _⟩ => ⟨S1114112x128, .f32⟩
  | .hbm, ⟨60, _⟩ => ⟨S1114112x128, .f32⟩
  | .hbm, ⟨61, _⟩ => ⟨S_, .f32⟩
  | .hbm, ⟨62, _⟩ => ⟨S65536x128, .f32⟩
  | .hbm, ⟨63, _⟩ => ⟨S1114112x1, .i32⟩
  | .hbm, ⟨64, _⟩ => ⟨S65536x128, .f32⟩
  | .hbm, ⟨65, _⟩ => ⟨S1x128, .f32⟩
  | .hbm, ⟨66, _⟩ => ⟨S65536x128, .f32⟩
  | .hbm, ⟨67, _⟩ => ⟨S65536x128, .f32⟩
  | .hbm, ⟨68, _⟩ => ⟨S_, .f32⟩
  | .hbm, ⟨69, _⟩ => ⟨S65536x128, .f32⟩
  | .hbm, ⟨70, _⟩ => ⟨S65536x128, .f32⟩
  | .hbm, ⟨71, _⟩ => ⟨S65536x128, .f32⟩
  | .hbm, ⟨72, _⟩ => ⟨S_, .i32⟩
  | .hbm, ⟨73, _⟩ => ⟨S1114112, .i32⟩
  | .hbm, ⟨74, _⟩ => ⟨S1114112, .i1⟩
  | .hbm, ⟨75, _⟩ => ⟨S_, .i32⟩
  | .hbm, ⟨76, _⟩ => ⟨S1114112, .i32⟩
  | .hbm, ⟨77, _⟩ => ⟨S1114112, .i32⟩
  | .hbm, ⟨78, _⟩ => ⟨S1114112, .i32⟩
  | .hbm, ⟨79, _⟩ => ⟨S1114112x1, .i32⟩
  | .hbm, ⟨80, _⟩ => ⟨S1114112x128, .f32⟩
  | .hbm, ⟨81, _⟩ => ⟨S1114112x1, .f32⟩
  | .hbm, ⟨82, _⟩ => ⟨S1114112x128, .f32⟩
  | .hbm, ⟨83, _⟩ => ⟨S1114112x128, .f32⟩
  | .hbm, ⟨84, _⟩ => ⟨S_, .f32⟩
  | .hbm, ⟨85, _⟩ => ⟨S65536x128, .f32⟩
  | .hbm, ⟨86, _⟩ => ⟨S1114112x1, .i32⟩
  | .hbm, ⟨87, _⟩ => ⟨S65536x128, .f32⟩
  | .hbm, ⟨88, _⟩ => ⟨S1x128, .f32⟩
  | .hbm, ⟨89, _⟩ => ⟨S65536x128, .f32⟩
  | .hbm, ⟨90, _⟩ => ⟨S65536x128, .f32⟩
  | .hbm, ⟨91, _⟩ => ⟨S_, .f32⟩
  | .hbm, ⟨92, _⟩ => ⟨S65536x128, .f32⟩
  | .hbm, ⟨93, _⟩ => ⟨S65536x128, .f32⟩
  | .hbm, ⟨94, _⟩ => ⟨S65536x64, .f32⟩
  | .hbm, ⟨95, _⟩ => ⟨S_, .i32⟩
  | .hbm, ⟨96, _⟩ => ⟨S1114112, .i32⟩
  | .hbm, ⟨97, _⟩ => ⟨S1114112, .i1⟩
  | .hbm, ⟨98, _⟩ => ⟨S_, .i32⟩
  | .hbm, ⟨99, _⟩ => ⟨S1114112, .i32⟩
  | .hbm, ⟨100, _⟩ => ⟨S1114112, .i32⟩
  | .hbm, ⟨101, _⟩ => ⟨S1114112, .i32⟩
  | .hbm, ⟨102, _⟩ => ⟨S1114112x1, .i32⟩
  | .hbm, ⟨103, _⟩ => ⟨S1114112x64, .f32⟩
  | .hbm, ⟨104, _⟩ => ⟨S1114112x1, .f32⟩
  | .hbm, ⟨105, _⟩ => ⟨S1114112x64, .f32⟩
  | .hbm, ⟨106, _⟩ => ⟨S1114112x64, .f32⟩
  | .hbm, ⟨107, _⟩ => ⟨S_, .f32⟩
  | .hbm, ⟨108, _⟩ => ⟨S65536x64, .f32⟩
  | .hbm, ⟨109, _⟩ => ⟨S1114112x1, .i32⟩
  | .hbm, ⟨110, _⟩ => ⟨S65536x64, .f32⟩
  | .hbm, ⟨111, _⟩ => ⟨S1x64, .f32⟩
  | .hbm, ⟨112, _⟩ => ⟨S65536x64, .f32⟩
  | .hbm, ⟨113, _⟩ => ⟨S65536x64, .f32⟩
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩

abbrev nD : Nat := 1
abbrev τ : Topo := Topo.v7x

variable {F : FTy → Type} [FloatOps F]

class Facts₀ : Prop where
  slices_S2x1048576_S1x1048576_0_0 : S2x1048576.Slices ![0, 0] S1x1048576
  shapeCasts_S1x1048576_S1048576 : S1x1048576.ShapeCasts S1048576
  concatenates_S1048576_S65536_S1114112_d0 : Shape.Concatenates [S1048576, S65536] S1114112 0
  slices_S2x1048576_S1x1048576_1_0 : S2x1048576.Slices ![1, 0] S1x1048576
  bcast_S_S1114112 : S_.BroadcastsInDim S1114112 (![] : Fin 0 → Fin S1114112.rank)
  bcast_S_S65536 : S_.BroadcastsInDim S65536 (![] : Fin 0 → Fin S65536.rank)
  bcast_S1114112_S1114112x1_0 : S1114112.BroadcastsInDim S1114112x1 (![0] : Fin 1 → Fin S1114112x1.rank)
  bcast_S1114112x1_S1114112x128_0_1 : S1114112x1.BroadcastsInDim S1114112x128 (![0, 1] : Fin 2 → Fin S1114112x128.rank)
  bcast_S_S65536x128 : S_.BroadcastsInDim S65536x128 (![] : Fin 0 → Fin S65536x128.rank)
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S1114112x1_S1114112x64_0_1 : S1114112x1.BroadcastsInDim S1114112x64 (![0, 1] : Fin 2 → Fin S1114112x64.rank)
  bcast_S_S65536x64 : S_.BroadcastsInDim S65536x64 (![] : Fin 0 → Fin S65536x64.rank)
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  scatter_S65536_S1114112x1_S1114112_n_0_0_1_wf : ScatterDims.WF S65536 S1114112x1 S1114112 [] [0] [0] 1
  gather_S65536_S1114112x1_S1114112_n_0_n_n_0_1_1_wf : GatherDims.WF S65536 S1114112x1 S1114112 [] [0] [] [0] [] 1 ![1]
  dot_S65536x64_S64x128_S65536x128_1_0_0_1_n_n_wf : DotDims.WF S65536x64 S64x128 S65536x128 [1] [0] [0] [1] [] []
  gather_S65536x128_S1114112x1_S1114112x128_1_0_n_n_0_1_1128_wf : GatherDims.WF S65536x128 S1114112x1 S1114112x128 [1] [0] [] [0] [] 1 ![1, 128]
  scatter_S65536x128_S1114112x1_S1114112x128_1_0_0_1_wf : ScatterDims.WF S65536x128 S1114112x1 S1114112x128 [1] [0] [0] 1
  dot_S65536x128_S128x128_S65536x128_1_0_0_1_n_n_wf : DotDims.WF S65536x128 S128x128 S65536x128 [1] [0] [0] [1] [] []
  dot_S65536x128_S128x64_S65536x64_1_0_0_1_n_n_wf : DotDims.WF S65536x128 S128x64 S65536x64 [1] [0] [0] [1] [] []
  gather_S65536x64_S1114112x1_S1114112x64_1_0_n_n_0_1_164_wf : GatherDims.WF S65536x64 S1114112x1 S1114112x64 [1] [0] [] [0] [] 1 ![1, 64]
  scatter_S65536x64_S1114112x1_S1114112x64_1_0_0_1_wf : ScatterDims.WF S65536x64 S1114112x1 S1114112x64 [1] [0] [0] 1

variable [Facts₀]

def scatter_S65536_S1114112x1_S1114112_n_0_0_1 : ScatterDims S65536 S1114112x1 S1114112 where
  updateWindowDims := []
  insertedWindowDims := [0]
  scatterDimsToOperandDims := [0]
  indexVectorDim := 1
  wf := scatter_S65536_S1114112x1_S1114112_n_0_0_1_wf
def gather_S65536_S1114112x1_S1114112_n_0_n_n_0_1_1 : GatherDims S65536 S1114112x1 S1114112 where
  offsetDims := []
  collapsedSliceDims := [0]
  operandBatchingDims := []
  startIndicesBatchingDims := []
  startIndexMap := [0]
  indexVectorDim := 1
  sliceSizes := ![1]
  wf := gather_S65536_S1114112x1_S1114112_n_0_n_n_0_1_1_wf
def dot_S65536x64_S64x128_S65536x128_1_0_0_1_n_n : DotDims S65536x64 S64x128 S65536x128 where
  lhsContracting := [1]
  rhsContracting := [0]
  lhsNonContracting := [0]
  rhsNonContracting := [1]
  lhsBatch := []
  rhsBatch := []
  wf := dot_S65536x64_S64x128_S65536x128_1_0_0_1_n_n_wf
def gather_S65536x128_S1114112x1_S1114112x128_1_0_n_n_0_1_1128 : GatherDims S65536x128 S1114112x1 S1114112x128 where
  offsetDims := [1]
  collapsedSliceDims := [0]
  operandBatchingDims := []
  startIndicesBatchingDims := []
  startIndexMap := [0]
  indexVectorDim := 1
  sliceSizes := ![1, 128]
  wf := gather_S65536x128_S1114112x1_S1114112x128_1_0_n_n_0_1_1128_wf
def scatter_S65536x128_S1114112x1_S1114112x128_1_0_0_1 : ScatterDims S65536x128 S1114112x1 S1114112x128 where
  updateWindowDims := [1]
  insertedWindowDims := [0]
  scatterDimsToOperandDims := [0]
  indexVectorDim := 1
  wf := scatter_S65536x128_S1114112x1_S1114112x128_1_0_0_1_wf
def dot_S65536x128_S128x128_S65536x128_1_0_0_1_n_n : DotDims S65536x128 S128x128 S65536x128 where
  lhsContracting := [1]
  rhsContracting := [0]
  lhsNonContracting := [0]
  rhsNonContracting := [1]
  lhsBatch := []
  rhsBatch := []
  wf := dot_S65536x128_S128x128_S65536x128_1_0_0_1_n_n_wf
def dot_S65536x128_S128x64_S65536x64_1_0_0_1_n_n : DotDims S65536x128 S128x64 S65536x64 where
  lhsContracting := [1]
  rhsContracting := [0]
  lhsNonContracting := [0]
  rhsNonContracting := [1]
  lhsBatch := []
  rhsBatch := []
  wf := dot_S65536x128_S128x64_S65536x64_1_0_0_1_n_n_wf
def gather_S65536x64_S1114112x1_S1114112x64_1_0_n_n_0_1_164 : GatherDims S65536x64 S1114112x1 S1114112x64 where
  offsetDims := [1]
  collapsedSliceDims := [0]
  operandBatchingDims := []
  startIndicesBatchingDims := []
  startIndexMap := [0]
  indexVectorDim := 1
  sliceSizes := ![1, 64]
  wf := gather_S65536x64_S1114112x1_S1114112x64_1_0_n_n_0_1_164_wf
def scatter_S65536x64_S1114112x1_S1114112x64_1_0_0_1 : ScatterDims S65536x64 S1114112x1 S1114112x64 where
  updateWindowDims := [1]
  insertedWindowDims := [0]
  scatterDimsToOperandDims := [0]
  indexVectorDim := 1
  wf := scatter_S65536x64_S1114112x1_S1114112x64_1_0_0_1_wf

class Facts : Prop extends Facts₀ where

variable [Facts]
-- ==== Proof.LibPlainDot.lean ====
/-
  A matrix product with the plain dimension numbers, read at an entry (general in the sizes).

  For a left operand `[R, K]`, a right operand `[K, N]` and a result `[R, N]`, when the left operand contracts
  its second axis, the right one its first, neither has a batch axis, and the result's axes are the left
  operand's rows then the right operand's columns, the sum over the contraction index at the entry `(p, q)` is
  the sum over `k : Fin K` of `l (p, k) * r (k, q)`. Stated once for any such record of dimension numbers, it
  reads a kernel's matrix product into a zero accumulator and a host's general dot product the same way.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {R K N : ℕ}

/-- The dimension numbers of `[R, K] · [K, N] → [R, N]`: one contracted axis each (the left operand's columns, the
    right operand's rows), no batch axes, rows before columns in the result. -/
structure IsPlain (d : DotDims (⟨2, ![R, K]⟩ : Shape) (⟨2, ![K, N]⟩ : Shape) (⟨2, ![R, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![R, K]⟩ : Shape) (⟨2, ![K, N]⟩ : Shape) (⟨2, ![R, N]⟩ : Shape)}

private theorem coord_congr {s : Shape} (j : s.Idx) (a b : ℕ) (ha : a < s.rank) (hb : b < s.rank) (h : a = b) :
    (j ⟨a, ha⟩).val = (j ⟨b, hb⟩).val := by subst h; rfl

/-- The left operand's row is the result's row. -/
theorem lhs_row (h : IsPlain d) (j : (⟨2, ![R, N]⟩ : Shape).Idx) (k : d.contr.Idx) :
    (d.lhsIdx j k (0 : Fin 2)).val = (j (0 : Fin 2)).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact coord_congr j _ _ _ _ (by simp [h.lb, h.ln])

/-- The left operand's column is the contraction coordinate. -/
theorem lhs_col (h : IsPlain d) (j : (⟨2, ![R, N]⟩ : Shape).Idx) (k : d.contr.Idx) :
    (d.lhsIdx j k (1 : Fin 2)).val = (k ⟨0, by rw [d.rank_contr, h.lc]; exact Nat.one_pos⟩).val :=
  d.lhsIdx_val_of_single h.lc j k

/-- The right operand's row is the contraction coordinate. -/
theorem rhs_row (h : IsPlain d) (j : (⟨2, ![R, N]⟩ : Shape).Idx) (k : d.contr.Idx) :
    (d.rhsIdx j k (0 : Fin 2)).val = (k ⟨0, by rw [d.rank_contr, ← d.length_contracting, h.rc]; exact Nat.one_pos⟩).val :=
  d.rhsIdx_val_of_single h.rc j k

/-- The right operand's column is the result's column. -/
theorem rhs_col (h : IsPlain d) (j : (⟨2, ![R, N]⟩ : Shape).Idx) (k : d.contr.Idx) :
    (d.rhsIdx j k (1 : Fin 2)).val = (j (1 : Fin 2)).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact coord_congr j _ _ _ _ (by simp [h.lb, h.ln, h.rn])

theorem contr_rank (h : IsPlain d) : d.contr.rank = 1 := by rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The contraction sum at the entry `(p, q)`, over the one contracted coordinate. -/
theorem sum_contr (h : IsPlain d) (l : (⟨2, ![R, K]⟩ : Shape).Idx → EReal) (r : (⟨2, ![K, N]⟩ : Shape).Idx → EReal)
    (p : Fin R) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank h) (contr_size h)).symm]
  refine Finset.sum_congr rfl fun k _ => ?_
  have hl : d.lhsIdx (ix2 p q) ((contrEquiv1 d K (contr_rank h) (contr_size h)).symm k) = ix2 p k := by
    funext a
    refine Fin.ext ?_
    match a with
    | ⟨0, _⟩ => exact lhs_row h _ _
    | ⟨1, _⟩ => exact (lhs_col h _ _).trans (contrEquiv1_symm_val d K (contr_rank h) (contr_size h) k)
  have hr : d.rhsIdx (ix2 p q) ((contrEquiv1 d K (contr_rank h) (contr_size h)).symm k) = ix2 k q := by
    funext a
    refine Fin.ext ?_
    match a with
    | ⟨0, _⟩ => exact (rhs_row h _ _).trans (contrEquiv1_symm_val d K (contr_rank h) (contr_size h) k)
    | ⟨1, _⟩ => exact rhs_col h _ _
  rw [hl, hr]

/-- A kernel's matrix product into the zero accumulator, at the ideal values, read at `(p, q)`. -/
theorem matmul_zero_apply (h : IsPlain d) (prec : Option ContractPrecision)
    (l : FVec Ideal (⟨2, ![R, K]⟩ : Shape) .f32) (r : FVec Ideal (⟨2, ![K, N]⟩ : Shape) .f32) (p : Fin R) (q : Fin N) :
    FloatOps.matmul d prec l r (constant (⟨2, ![R, N]⟩ : Shape) .f32 0x00000000#32) (ix2 p q)
      = ∑ k : Fin K, l (ix2 p k) * r (ix2 k q) :=
  (Ideal.matmul_constant_zero_apply d prec l r (ix2 p q)).trans (sum_contr h l r p q)

/-- A host's general dot product, at the ideal values, read at `(p, q)`. -/
theorem dotGeneral_apply (h : IsPlain d) (prec : Option ContractPrecision) (sched : HostSchedule)
    (l : FVec Ideal (⟨2, ![R, K]⟩ : Shape) .f32) (r : FVec Ideal (⟨2, ![K, N]⟩ : Shape) .f32) (p : Fin R) (q : Fin N) :
    FloatOps.dotGeneral d prec sched l r (ix2 p q) = ∑ k : Fin K, l (ix2 p k) * r (ix2 k q) :=
  (Ideal.dotGeneral_apply d prec sched l r (ix2 p q)).trans (sum_contr h l r p q)

end Idealize.ShloMosaic.PlainDot
-- ==== Proof.LibRowBlockProduct.lean ====
/-
  A matrix product tiled by ROW BLOCKS is the whole product (general in the sizes).

  The product of an [R, K] matrix and a [K, N] matrix over the extended reals, as one function of the two
  arrays: entry (p, q) is the sum over k of A (p, k) · B (k, q).

  Both programs compute it. The host's general dot product with the plain dimension numbers IS this
  function (`dotGeneral_eq_prod`). A kernel that holds only `Rb` consecutive rows of A, starting at row `o`,
  and multiplies them into a zero accumulator, leaves the rows o … o + Rb − 1 of the same function
  (`matmul_rows`): the sum over k at an entry reads one row of A and one column of B, so cutting A by rows
  cuts the product by rows. No finiteness is needed: nothing is regrouped, the two sums have the same terms.
-/
import proofs.«143135_j5463198401300_1_alg».proof.Proof.LibPlainDot

open scoped BigOperators

noncomputable section

namespace Idealize.ShloMosaic.RowBlockProduct

open Idealize.ShloMosaic Idealize.ShloMosaic.ValueIdx Idealize.ShloMosaic.PlainDot

variable {R Rb K N : ℕ}

/-- The matrix product at the extended reals, index by index. -/
def prod (A : (⟨2, ![R, K]⟩ : Shape).Idx → EReal) (B : (⟨2, ![K, N]⟩ : Shape).Idx → EReal) :
    (⟨2, ![R, N]⟩ : Shape).Idx → EReal :=
  fun i => ∑ k : Fin K, A (ix2 (i 0) k) * B (ix2 k (i 1))

theorem prod_apply (A : (⟨2, ![R, K]⟩ : Shape).Idx → EReal) (B : (⟨2, ![K, N]⟩ : Shape).Idx → EReal)
    (p : Fin R) (q : Fin N) : prod A B (ix2 p q) = ∑ k : Fin K, A (ix2 p k) * B (ix2 k q) := rfl

/-- The host's general dot product with the plain dimension numbers is the product, whatever the operands'
    float formats (a format is not seen at the extended reals). -/
theorem dotGeneral_eq_prod {φ₁ φ₂ : FTy}
    {d : DotDims (⟨2, ![R, K]⟩ : Shape) (⟨2, ![K, N]⟩ : Shape) (⟨2, ![R, N]⟩ : Shape)} (h : IsPlain d)
    (prec : Option ContractPrecision) (l : FVec Ideal (⟨2, ![R, K]⟩ : Shape) φ₁) (r : FVec Ideal (⟨2, ![K, N]⟩ : Shape) φ₂) :
    Host.dotGeneral (F := Ideal) d prec l r = prod l r := by
  funext j
  obtain ⟨p, q, rfl⟩ : ∃ (p : Fin R) (q : Fin N), j = ix2 p q := ⟨j 0, j 1, eq_ix2 j⟩
  exact (Ideal.dotGeneral_apply d prec .single l r (ix2 p q)).trans (sum_contr h l r p q)

/-- A kernel's product of `Rb` rows of `A` (the rows from `o` on) with `B`, into the zero accumulator, read at
    (p, q), is the whole product at row `o + p`. -/
theorem matmul_rows {φ₁ φ₂ : FTy}
    {d : DotDims (⟨2, ![Rb, K]⟩ : Shape) (⟨2, ![K, N]⟩ : Shape) (⟨2, ![Rb, N]⟩ : Shape)} (h : IsPlain d)
    (prec : Option ContractPrecision)
    (A : (⟨2, ![R, K]⟩ : Shape).Idx → EReal) (B : (⟨2, ![K, N]⟩ : Shape).Idx → EReal)
    (x0 : FVec Ideal (⟨2, ![Rb, K]⟩ : Shape) φ₁) (x1 : FVec Ideal (⟨2, ![K, N]⟩ : Shape) φ₂)
    (o : ℕ) (ho : o + Rb ≤ R)
    (hx0 : ∀ (p : Fin Rb) (k : Fin K), x0 (ix2 p k) = A (ix2 ⟨o + p.val, by have := p.isLt; omega⟩ k))
    (hx1 : ∀ (k : Fin K) (q : Fin N), x1 (ix2 k q) = B (ix2 k q))
    (p : Fin Rb) (q : Fin N) :
    matmul (F := Ideal) d prec x0 x1 (constant (⟨2, ![Rb, N]⟩ : Shape) .f32 0x00000000#32) (ix2 p q)
      = prod A B (ix2 ⟨o + p.val, by have := p.isLt; omega⟩ q) := by
  rw [prod_apply]
  refine ((Ideal.matmul_constant_zero_apply d prec x0 x1 (ix2 p q)).trans (sum_contr h x0 x1 p q)).trans ?_
  exact Finset.sum_congr rfl fun k _ => by rw [hx0 p k, hx1 k q]

end Idealize.ShloMosaic.RowBlockProduct

end
-- ==== Proof.Lin0.lean ====
/-
  Region 0 of the kernel program: the first layer's linear map.

  The region walks the 65536 rows of the node features in 16 blocks of 4096 rows.  At block `t` the body holds rows
  4096·t … 4096·t + 4095 of the features (all 64 columns) and the whole 64 × 128 weight matrix, rounds both to a
  narrower float format — which at the extended reals changes nothing — and multiplies them into a zero
  accumulator.  Entry (p, q) of that block product is the sum over k of x(4096·t + p, k) · w(k, q): row 4096·t + p of
  the product of the two whole matrices.  The 16 row blocks tile the 65536 × 128 result, so after the region the
  result array is the whole matrix product of the two arrays as the region found them.
-/
import proofs.«143135_j5463198401300_1_alg».proof.Proof.Gen.KernelIdeal.Frame
import proofs.«143135_j5463198401300_1_alg».proof.Proof.LibRowBlockProduct
import Idealize.ShloMosaic.Lib.Pipeline.Value
import Idealize.ShloMosaic.Lib.ValueIdx

set_option maxRecDepth 16384

noncomputable section

namespace Cert.KernelIdeal.Lin0

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.PlainDot Idealize.ShloMosaic.RowBlockProduct

variable (V : (c : Dev nD) → (b : Ref sig .tc) → Buf (Elt Ideal) ((c : Thread nD τ).loc b))

theorem zero_off : (![0, 0] : Fin 2 → Nat) = fun _ => 0 := funext fun a => by fin_cases a <;> rfl

/-- The block product contracts the features' columns with the weights' rows and has no batch axis. -/
theorem plain : IsPlain (R := 4096) (K := 64) (N := 128) dot_S4096x64_S64x128_S4096x128_1_0_0_1_n_n :=
  ⟨rfl, rfl, rfl, rfl, rfl, rfl⟩

/-- Where the three windows' blocks sit at grid point `t`: the features' and the result's at row block `t`, the
    weights' always at the origin. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's product of a row block: if the block `x0` holds the rows of `A` from row `o` on and `x1` is `B`,
    entry (p, q) of what the body stores is entry (o + p, q) of the whole product. -/
theorem body_apply (A : S65536x64.Idx → EReal) (B : S64x128.Idx → EReal)
    (x0 : Vec Ideal S4096x64 .f32) (x1 : Vec Ideal S64x128 .f32) (o : ℕ) (ho : o + 4096 ≤ 65536)
    (hx0 : ∀ (p : Fin 4096) (k : Fin 64), x0 (ix2 p k) = A (ix2 ⟨o + p.val, by have := p.isLt; omega⟩ k))
    (hx1 : ∀ (k : Fin 64) (q : Fin 128), x1 (ix2 k q) = B (ix2 k q)) (p : Fin 4096) (q : Fin 128) :
    k0_pay1 (F := Ideal) x0 x1 (ix2 p q) = prod A B (ix2 ⟨o + p.val, by have := p.isLt; omega⟩ q) := by
  unfold k0_pay1
  exact matmul_rows plain none A B _ _ o ho hx0 hx1 p q

/-- What grid point `t` writes back is block `t` of the whole product. -/
theorem flushed_eq (c : Dev nD) (t : Fin cfg0.N) :
    (dat0 V c).flushed 2 t
      = ((cfg0.win 2).blk t).view.read (Elt Ideal) (prod (V c main_arg0) (V c main_arg1)) := by
  show (cfg0.win 2).cut (grid0.coords t) ((dat0 V c).after 2 t) = _
  rw [after0_2]
  unfold out0_2
  rw [View.canon_unit_zero zero_off]
  simp only [View.ld_unit_zero (S := S4096x64) zero_off, View.ld_unit_zero (S := S64x128) zero_off]
  obtain ⟨e0, e1, e2, e3, e4, e5⟩ := block_index t
  have ht : t.val < 16 := t.isLt
  funext j
  obtain ⟨p, q, rfl⟩ : ∃ (p : Fin 4096) (q : Fin 128), j = ix2 p q := ⟨j 0, j 1, eq_ix2 j⟩
  have hrow : ((cfg0.win 2).blk t).view.emb (ix2 p q) = ix2 ⟨t.val * 4096 + p.val, by have := p.isLt; omega⟩ q := by
    funext a; apply Fin.ext
    match a with
    | ⟨0, _⟩ => show win0_2.index t (0 : Fin 2) * 4096 + 1 * p.val = t.val * 4096 + p.val; omega
    | ⟨1, _⟩ => show win0_2.index t (1 : Fin 2) * 128 + 1 * q.val = q.val; omega
  show k0_pay1 (F := Ideal) (iblk0 V c 0 t) (iblk0 V c 1 t) (ix2 p q)
    = prod (V c main_arg0) (V c main_arg1) (((cfg0.win 2).blk t).view.emb (ix2 p q))
  rw [hrow]
  refine body_apply (V c main_arg0) (V c main_arg1) _ _ (t.val * 4096) (by omega) ?_ ?_ p q
  · intro p k
    show V c main_arg0 (((cfg0.win 0).blk t).view.emb (ix2 p k)) = _
    refine congrArg _ ?_
    funext a; apply Fin.ext
    match a with
    | ⟨0, _⟩ => show win0_0.index t (0 : Fin 2) * 4096 + 1 * p.val = t.val * 4096 + p.val; omega
    | ⟨1, _⟩ => show win0_0.index t (1 : Fin 2) * 64 + 1 * k.val = k.val; omega
  · intro k q
    show V c main_arg1 (((cfg0.win 1).blk t).view.emb (ix2 k q)) = _
    refine congrArg _ ?_
    funext a; apply Fin.ext
    match a with
    | ⟨0, _⟩ => show win0_1.index t (0 : Fin 2) * 64 + 1 * k.val = k.val; omega
    | ⟨1, _⟩ => show win0_1.index t (1 : Fin 2) * 128 + 1 * q.val = q.val; omega

/-- An index of the result array is in point `t`'s block iff each coordinate is in the block's range on its axis. -/
theorem mem_block (t : Fin cfg0.N) (i : S65536x128.Idx) :
    i ∈ ((cfg0.win 2).blk t).view.set
      ↔ ∀ a : Fin 2, win0_2.index t a * S4096x128.size a ≤ (i a).val
          ∧ (i a).val < win0_2.index t a * S4096x128.size a + S4096x128.size a := by
  show i ∈ ((View.whole main_v30).slice (win0_2.rect t)).set ↔ _
  rw [View.set_slice_whole, Rect.mem_set_unit]
  exact Iff.rfl

/-- Every entry of the result lies in the row block its row falls in. -/
theorem covered (i : S65536x128.Idx) :
    ∃ t : Fin cfg0.N, (cfg0.win 2).flush t = true ∧ i ∈ ((cfg0.win 2).blk t).view.set := by
  have hi0 : (i 0).val < 65536 := (i 0).isLt
  have hi1 : (i 1).val < 128 := (i 1).isLt
  refine ⟨⟨(i 0).val / 4096, by show (i 0).val / 4096 < 16; omega⟩, flush0_2 _, ?_⟩
  rw [mem_block]
  obtain ⟨e0, e1, e2, e3, e4, e5⟩ := block_index ⟨(i 0).val / 4096, by show (i 0).val / 4096 < 16; omega⟩
  intro a
  match a with
  | ⟨0, _⟩ =>
    show win0_2.index _ (0 : Fin 2) * 4096 ≤ (i 0).val ∧ (i 0).val < win0_2.index _ (0 : Fin 2) * 4096 + 4096
    rw [e4]; show (i 0).val / 4096 * 4096 ≤ (i 0).val ∧ (i 0).val < (i 0).val / 4096 * 4096 + 4096; omega
  | ⟨1, _⟩ =>
    show win0_2.index _ (1 : Fin 2) * 128 ≤ (i 1).val ∧ (i 1).val < win0_2.index _ (1 : Fin 2) * 128 + 128
    rw [e5]; omega

/-- After the region the result array is the product of the features and the weights as the region found them. -/
theorem final (c : Dev nD) :
    (dat0 V c).arrAt 2 cfg0.N = prod (V c main_arg0) (V c main_arg1) :=
  (dat0 V c).arrAt_eq_of_cover 2 (prod (V c main_arg0) (V c main_arg1)) (fun t _ => flushed_eq V c t) covered

end Cert.KernelIdeal.Lin0

end
-- ==== Proof.LibRowBias.lean ====
/-
  A row added to every row of a matrix, with or without a clamp at zero (general in the sizes).

  For a matrix `A` of shape [R, N] and a one-row matrix `b` of shape [1, N] over the extended reals, `addRow A b` has
  the entry A (p, q) + b (0, q), and `addRowRelu A b` the larger of that and zero.  A kernel that holds only `Rb`
  consecutive rows of `A`, from row `o` on, beside the whole row `b`, and spreads `b` over its rows before adding,
  computes the rows o … o + Rb − 1 of the same function (`block_addRow`, `block_addRowRelu`): each entry depends on
  one entry of `A` and one of `b`, so cutting `A` by rows cuts the result by rows.
-/
import Idealize.ShloMosaic.Lib.ValueIdx
import Idealize.ShloMosaic.Lib.Pipeline.Value
import Idealize.ShloMosaic.PureOps.Ideal

noncomputable section

namespace Cert.Lib.RowBias

open Idealize.ShloMosaic Idealize.ShloMosaic.ValueIdx

variable {R Rb N : ℕ}

/-- The row `b` added to every row of `A`. -/
def addRow (A : (⟨2, ![R, N]⟩ : Shape).Idx → EReal) (b : (⟨2, ![1, N]⟩ : Shape).Idx → EReal) :
    (⟨2, ![R, N]⟩ : Shape).Idx → EReal :=
  fun i => A i + b (ix2 (0 : Fin 1) (i 1))

/-- The row `b` added to every row of `A`, then the maximum with zero. -/
def addRowRelu (A : (⟨2, ![R, N]⟩ : Shape).Idx → EReal) (b : (⟨2, ![1, N]⟩ : Shape).Idx → EReal) :
    (⟨2, ![R, N]⟩ : Shape).Idx → EReal :=
  fun i => max (A i + b (ix2 (0 : Fin 1) (i 1))) (FloatOps.ofBits (F := Ideal) .f32 0x00000000#32)

theorem addRow_apply (A : (⟨2, ![R, N]⟩ : Shape).Idx → EReal) (b : (⟨2, ![1, N]⟩ : Shape).Idx → EReal)
    (p : Fin R) (q : Fin N) : addRow A b (ix2 p q) = A (ix2 p q) + b (ix2 (0 : Fin 1) q) := rfl

theorem addRowRelu_apply (A : (⟨2, ![R, N]⟩ : Shape).Idx → EReal) (b : (⟨2, ![1, N]⟩ : Shape).Idx → EReal)
    (p : Fin R) (q : Fin N) :
    addRowRelu A b (ix2 p q)
      = max (A (ix2 p q) + b (ix2 (0 : Fin 1) q)) (FloatOps.ofBits (F := Ideal) .f32 0x00000000#32) := rfl

/-- The one-row matrix spread down `Rb` rows has that row in every row. -/
theorem spread_apply {α : Type} (x : (⟨2, ![1, N]⟩ : Shape).Idx → α)
    (h : (⟨2, ![1, N]⟩ : Shape).Broadcasts (⟨2, ![Rb, N]⟩ : Shape)) (p : Fin Rb) (q : Fin N) :
    broadcastTo (⟨2, ![Rb, N]⟩ : Shape) x h (ix2 p q) = x (ix2 (0 : Fin 1) q) := by
  refine broadcastTo_apply x h _ _ fun a => ?_
  match a with
  | ⟨0, _⟩ => exact (if_pos rfl).symm
  | ⟨1, _⟩ =>
    show q.val = if N = 1 then 0 else q.val
    by_cases hn : N = 1
    · rw [if_pos hn]; have := q.isLt; omega
    · rw [if_neg hn]

/-- A kernel's sum of `Rb` rows of `A` (the rows from `o` on) with the row `b` spread over them, read at (p, q), is
    `addRow A b` at row `o + p`. -/
theorem block_addRow (A : (⟨2, ![R, N]⟩ : Shape).Idx → EReal) (b : (⟨2, ![1, N]⟩ : Shape).Idx → EReal)
    (x0 : FVec Ideal (⟨2, ![Rb, N]⟩ : Shape) .f32) (x1 : FVec Ideal (⟨2, ![1, N]⟩ : Shape) .f32)
    (h0 : (⟨2, ![Rb, N]⟩ : Shape).ShapeCasts (⟨2, ![Rb, N]⟩ : Shape))
    (h1 : (⟨2, ![1, N]⟩ : Shape).ShapeCasts (⟨2, ![1, N]⟩ : Shape))
    (hb : (⟨2, ![1, N]⟩ : Shape).Broadcasts (⟨2, ![Rb, N]⟩ : Shape))
    (o : ℕ) (ho : o + Rb ≤ R)
    (hx0 : ∀ (p : Fin Rb) (q : Fin N), x0 (ix2 p q) = A (ix2 ⟨o + p.val, by have := p.isLt; omega⟩ q))
    (hx1 : ∀ q : Fin N, x1 (ix2 (0 : Fin 1) q) = b (ix2 (0 : Fin 1) q)) (p : Fin Rb) (q : Fin N) :
    addf (shapeCast (⟨2, ![Rb, N]⟩ : Shape) x0 h0)
        (broadcastTo (⟨2, ![Rb, N]⟩ : Shape) (shapeCast (⟨2, ![1, N]⟩ : Shape) x1 h1) hb) (ix2 p q)
      = addRow A b (ix2 ⟨o + p.val, by have := p.isLt; omega⟩ q) := by
  rw [addf_apply, shapeCast_self, shapeCast_self, spread_apply, addRow_apply, hx0 p q, hx1 q]

/-- The same with the clamp at zero. -/
theorem block_addRowRelu (A : (⟨2, ![R, N]⟩ : Shape).Idx → EReal) (b : (⟨2, ![1, N]⟩ : Shape).Idx → EReal)
    (x0 : FVec Ideal (⟨2, ![Rb, N]⟩ : Shape) .f32) (x1 : FVec Ideal (⟨2, ![1, N]⟩ : Shape) .f32)
    (h0 : (⟨2, ![Rb, N]⟩ : Shape).ShapeCasts (⟨2, ![Rb, N]⟩ : Shape))
    (h1 : (⟨2, ![1, N]⟩ : Shape).ShapeCasts (⟨2, ![1, N]⟩ : Shape))
    (hb : (⟨2, ![1, N]⟩ : Shape).Broadcasts (⟨2, ![Rb, N]⟩ : Shape))
    (o : ℕ) (ho : o + Rb ≤ R)
    (hx0 : ∀ (p : Fin Rb) (q : Fin N), x0 (ix2 p q) = A (ix2 ⟨o + p.val, by have := p.isLt; omega⟩ q))
    (hx1 : ∀ q : Fin N, x1 (ix2 (0 : Fin 1) q) = b (ix2 (0 : Fin 1) q)) (p : Fin Rb) (q : Fin N) :
    maximumf (addf (shapeCast (⟨2, ![Rb, N]⟩ : Shape) x0 h0)
        (broadcastTo (⟨2, ![Rb, N]⟩ : Shape) (shapeCast (⟨2, ![1, N]⟩ : Shape) x1 h1) hb))
        (broadcast (⟨2, ![Rb, N]⟩ : Shape) (FloatOps.ofBits (F := Ideal) .f32 0x00000000#32)) (ix2 p q)
      = addRowRelu A b (ix2 ⟨o + p.val, by have := p.isLt; omega⟩ q) := by
  rw [maximumf_apply, broadcast_apply, block_addRow A b x0 x1 h0 h1 hb o ho hx0 hx1 p q]
  rfl

end Cert.Lib.RowBias

end
-- ==== Proof.Act1.lean ====
/-
  Region 1 of the kernel program: the first layer's bias and clamp.

  The region walks the 65536 rows of the aggregated messages in 16 blocks of 4096 rows.  At block `t` the body holds
  rows 4096·t … 4096·t + 4095 of the aggregate (all 128 columns) and the bias as a one-row matrix, spreads the bias
  over the rows, adds, and takes the maximum with zero.  Entry (p, q) of what it stores is
  max (agg (4096·t + p, q) + bias (0, q), 0): row 4096·t + p of the same function of the two whole arrays.  The 16 row
  blocks tile the 65536 × 128 result, so after the region the result array is that function of the two arrays as the
  region found them.
-/
import proofs.«143135_j5463198401300_1_alg».proof.Proof.Gen.KernelIdeal.Frame
import proofs.«143135_j5463198401300_1_alg».proof.Proof.LibRowBias
import Idealize.ShloMosaic.Lib.Pipeline.Value
import Idealize.ShloMosaic.Lib.ValueIdx

set_option maxRecDepth 16384

noncomputable section

namespace Cert.KernelIdeal.Act1

open Cert.KernelIdeal Cert.KernelIdeal.Gen Idealize.ShloMosaic Idealize.ShloMosaic.TcCoe Idealize.SL.Sem
open Idealize.ShloMosaic.Pipeline (Dat)
open Idealize.ShloMosaic.ValueIdx Cert.Lib.RowBias

variable (V : (c : Dev nD) → (b : Ref sig .tc) → Buf (Elt Ideal) ((c : Thread nD τ).loc b))

theorem zero_off : (![0, 0] : Fin 2 → Nat) = fun _ => 0 := funext fun a => by fin_cases a <;> rfl

/-- Where the three windows' blocks sit at grid point `t`: the aggregate's and the result's at row block `t`, the
    bias row's always at the origin. -/
theorem block_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The body on a row block: if the block `x0` holds the rows of `A` from row `o` on and `x1` is the row `b`,
    entry (p, q) of what the body stores is entry (o + p, q) of the whole function. -/
theorem body_apply (A : S65536x128.Idx → EReal) (b : S1x128.Idx → EReal)
    (x0 : Vec Ideal S4096x128 .f32) (x1 : Vec Ideal S1x128 .f32) (o : ℕ) (ho : o + 4096 ≤ 65536)
    (hx0 : ∀ (p : Fin 4096) (q : Fin 128), x0 (ix2 p q) = A (ix2 ⟨o + p.val, by have := p.isLt; omega⟩ q))
    (hx1 : ∀ q : Fin 128, x1 (ix2 (0 : Fin 1) q) = b (ix2 (0 : Fin 1) q)) (p : Fin 4096) (q : Fin 128) :
    k1_pay1 (F := Ideal) x0 x1 (ix2 p q) = addRowRelu A b (ix2 ⟨o + p.val, by have := p.isLt; omega⟩ q) := by
  unfold k1_pay1
  exact block_addRowRelu A b x0 x1 _ _ _ o ho hx0 hx1 p q

/-- What grid point `t` writes back is block `t` of the whole function. -/
theorem flushed_eq (c : Dev nD) (t : Fin cfg1.N) :
    (dat1 V c).flushed 2 t
      = ((cfg1.win 2).blk t).view.read (Elt Ideal) (addRowRelu (V c main_v43) (V c main_v44)) := by
  show (cfg1.win 2).cut (grid1.coords t) ((dat1 V c).after 2 t) = _
  rw [after1_2]
  unfold out1_2
  rw [View.canon_unit_zero zero_off]
  simp only [View.ld_unit_zero (S := S4096x128) zero_off, View.ld_unit_zero (S := S1x128) zero_off]
  obtain ⟨e0, e1, e2, e3, e4, e5⟩ := block_index t
  have ht : t.val < 16 := t.isLt
  funext j
  obtain ⟨p, q, rfl⟩ : ∃ (p : Fin 4096) (q : Fin 128), j = ix2 p q := ⟨j 0, j 1, eq_ix2 j⟩
  have hrow : ((cfg1.win 2).blk t).view.emb (ix2 p q) = ix2 ⟨t.val * 4096 + p.val, by have := p.isLt; omega⟩ q := by
    funext a; apply Fin.ext
    match a with
    | ⟨0, _⟩ => show win1_2.index t (0 : Fin 2) * 4096 + 1 * p.val = t.val * 4096 + p.val; omega
    | ⟨1, _⟩ => show win1_2.index t (1 : Fin 2) * 128 + 1 * q.val = q.val; omega
  show k1_pay1 (F := Ideal) (iblk1 V c 0 t) (iblk1 V c 1 t) (ix2 p q)
    = addRowRelu (V c main_v43) (V c main_v44) (((cfg1.win 2).blk t).view.emb (ix2 p q))
  rw [hrow]
  refine body_apply (V c main_v43) (V c main_v44) _ _ (t.val * 4096) (by omega) ?_ ?_ p q
  · intro p q
    show V c main_v43 (((cfg1.win 0).blk t).view.emb (ix2 p q)) = _
    refine congrArg _ ?_
    funext a; apply Fin.ext
    match a with
    | ⟨0, _⟩ => show win1_0.index t (0 : Fin 2) * 4096 + 1 * p.val = t.val * 4096 + p.val; omega
    | ⟨1, _⟩ => show win1_0.index t (1 : Fin 2) * 128 + 1 * q.val = q.val; omega
  · intro q
    show V c main_v44 (((cfg1.win 1).blk t).view.emb (ix2 (0 : Fin 1) q)) = _
    refine congrArg _ ?_
    funext a; apply Fin.ext
    match a with
    | ⟨0, _⟩ => show win1_1.index t (0 : Fin 2) * 1 + 1 * 0 = 0; omega
    | ⟨1, _⟩ => show win1_1.index t (1 : Fin 2) * 128 + 1 * q.val = q.val; omega

/-- An index of the result array is in point `t`'s block iff each coordinate is in the block's range on its axis. -/
theorem mem_block (t : Fin cfg1.N) (i : S65536x128.Idx) :
    i ∈ ((cfg1.win 2).blk t).view.set
      ↔ ∀ a : Fin 2, win1_2.index t a * S4096x128.size a ≤ (i a).val
          ∧ (i a).val < win1_2.index t a * S4096x128.size a + S4096x128.size a := by
  show i ∈ ((View.whole main_v45).slice (win1_2.rect t)).set ↔ _
  rw [View.set_slice_whole, Rect.mem_set_unit]
  exact Iff.rfl

/-- Every entry of the result lies in the row block its row falls in. -/
theorem covered (i : S65536x128.Idx) :
    ∃ t : Fin cfg1.N, (cfg1.win 2).flush t = true ∧ i ∈ ((cfg1.win 2).blk t).view.set := by
  have hi0 : (i 0).val < 65536 := (i 0).isLt
  have hi1 : (i 1).val < 128 := (i 1).isLt
  refine ⟨⟨(i 0).val / 4096, by show (i 0).val / 4096 < 16; omega⟩, flush1_2 _, ?_⟩
  rw [mem_block]
  obtain ⟨e0, e1, e2, e3, e4, e5⟩ := block_index ⟨(i 0).val / 4096, by show (i 0).val / 4096 < 16; omega⟩
  intro a
  match a with
  | ⟨0, _⟩ =>
    show win1_2.index _ (0 : Fin 2) * 4096 ≤ (i 0).val ∧ (i 0).val < win1_2.index _ (0 : Fin 2) * 4096 + 4096
    rw [e4]; show (i 0).val / 4096 * 4096 ≤ (i 0).val ∧ (i 0).val < (i 0).val / 4096 * 4096 + 4096; omega
  | ⟨1, _⟩ =>
    show win1_2.index _ (1 : Fin 2) * 128 ≤ (i 1).val ∧ (i 1).val < win1_2.index _ (1 : Fin 2) * 128 + 128
    rw [e5]; omega

/-- After the region the result array is the clamped sum of the aggregate and the bias row as the region found them. -/
theorem final (c : Dev nD) :
    (dat1 V c).arrAt 2 cfg1.N = addRowRelu (V c main_v43) (V c main_v44) :=
  (dat1 V c).arrAt_eq_of_cover 2 (addRowRelu (V c main_v43) (V c main_v44)) (fun t _ => flushed_eq V c t) covered

end Cert.KernelIdeal.Act1

end
-- ==== Proof.Lin2.lean ====
/-
  Region 2 of the kernel program: the second layer's linear map.

  The region walks the 65536 rows of the first layer's activations in 16 blocks of 4096 rows.  At block `t` the body holds rows
  4096·t … 4096·t + 4095 of the activations (all 128 columns) and the whole 128 × 128 weight matrix, rounds both to a
  narrower float format — which at the extended reals changes nothing — and multiplies them into a zero
  accumulator.  Entry (p, q) of that block product is the sum over k of x(4096·t + p, k) · w(k, q): row 4096·t + p of
  the product of the two whole matrices.  The 16 row blocks tile the 65536 × 128 result, so after the region the
  result array is the whole matrix product of the two arrays as the region found them.
-/
import proofs.«143135_j5463198401300_1_alg».proof.Proof.Gen.KernelIdeal.Frame
import proofs.«143135_j5463198401300_1_alg».proof.Proof.LibRowBlockProduct
import Idealize.ShloMosaic.Lib.Pipeline.Value
import Idealize.ShloMosaic.Lib.ValueIdx

set_option maxRecDepth 16384

noncomputable section

namespace Cert.KernelIdeal.Lin2

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.PlainDot Idealize.ShloMosaic.RowBlockProduct

variable (V : (c : Dev nD) → (b : Ref sig .tc) → Buf (Elt Ideal) ((c : Thread nD τ).loc b))

theorem zero_off : (![0, 0] : Fin 2 → Nat) = fun _ => 0 := funext fun a => by fin_cases a <;> rfl

/-- The block product contracts the features' columns with the weights' rows and has no batch axis. -/
theorem plain : IsPlain (R := 4096) (K := 128) (N := 128) dot_S4096x128_S128x128_S4096x128_1_0_0_1_n_n :=
  ⟨rfl, rfl, rfl, rfl, rfl, rfl⟩

/-- Where the three windows' blocks sit at grid point `t`: the features' and the result's at row block `t`, the
    weights' always at the origin. -/
theorem block_index : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's product of a row block: if the block `x0` holds the rows of `A` from row `o` on and `x1` is `B`,
    entry (p, q) of what the body stores is entry (o + p, q) of the whole product. -/
theorem body_apply (A : S65536x128.Idx → EReal) (B : S128x128.Idx → EReal)
    (x0 : Vec Ideal S4096x128 .f32) (x1 : Vec Ideal S128x128 .f32) (o : ℕ) (ho : o + 4096 ≤ 65536)
    (hx0 : ∀ (p : Fin 4096) (k : Fin 128), x0 (ix2 p k) = A (ix2 ⟨o + p.val, by have := p.isLt; omega⟩ k))
    (hx1 : ∀ (k : Fin 128) (q : Fin 128), x1 (ix2 k q) = B (ix2 k q)) (p : Fin 4096) (q : Fin 128) :
    k2_pay1 (F := Ideal) x0 x1 (ix2 p q) = prod A B (ix2 ⟨o + p.val, by have := p.isLt; omega⟩ q) := by
  unfold k2_pay1
  rw [shapeCast_self]
  exact matmul_rows plain none A B _ _ o ho hx0 hx1 p q

/-- What grid point `t` writes back is block `t` of the whole product. -/
theorem flushed_eq (c : Dev nD) (t : Fin cfg2.N) :
    (dat2 V c).flushed 2 t
      = ((cfg2.win 2).blk t).view.read (Elt Ideal) (prod (V c main_v45) (V c main_arg3)) := by
  show (cfg2.win 2).cut (grid2.coords t) ((dat2 V c).after 2 t) = _
  rw [after2_2]
  unfold out2_2
  rw [View.canon_unit_zero zero_off]
  simp only [View.ld_unit_zero (S := S4096x128) zero_off, View.ld_unit_zero (S := S128x128) zero_off]
  obtain ⟨e0, e1, e2, e3, e4, e5⟩ := block_index t
  have ht : t.val < 16 := t.isLt
  funext j
  obtain ⟨p, q, rfl⟩ : ∃ (p : Fin 4096) (q : Fin 128), j = ix2 p q := ⟨j 0, j 1, eq_ix2 j⟩
  have hrow : ((cfg2.win 2).blk t).view.emb (ix2 p q) = ix2 ⟨t.val * 4096 + p.val, by have := p.isLt; omega⟩ q := by
    funext a; apply Fin.ext
    match a with
    | ⟨0, _⟩ => show win2_2.index t (0 : Fin 2) * 4096 + 1 * p.val = t.val * 4096 + p.val; omega
    | ⟨1, _⟩ => show win2_2.index t (1 : Fin 2) * 128 + 1 * q.val = q.val; omega
  show k2_pay1 (F := Ideal) (iblk2 V c 0 t) (iblk2 V c 1 t) (ix2 p q)
    = prod (V c main_v45) (V c main_arg3) (((cfg2.win 2).blk t).view.emb (ix2 p q))
  rw [hrow]
  refine body_apply (V c main_v45) (V c main_arg3) _ _ (t.val * 4096) (by omega) ?_ ?_ p q
  · intro p k
    show V c main_v45 (((cfg2.win 0).blk t).view.emb (ix2 p k)) = _
    refine congrArg _ ?_
    funext a; apply Fin.ext
    match a with
    | ⟨0, _⟩ => show win2_0.index t (0 : Fin 2) * 4096 + 1 * p.val = t.val * 4096 + p.val; omega
    | ⟨1, _⟩ => show win2_0.index t (1 : Fin 2) * 128 + 1 * k.val = k.val; omega
  · intro k q
    show V c main_arg3 (((cfg2.win 1).blk t).view.emb (ix2 k q)) = _
    refine congrArg _ ?_
    funext a; apply Fin.ext
    match a with
    | ⟨0, _⟩ => show win2_1.index t (0 : Fin 2) * 128 + 1 * k.val = k.val; omega
    | ⟨1, _⟩ => show win2_1.index t (1 : Fin 2) * 128 + 1 * q.val = q.val; omega

/-- An index of the result array is in point `t`'s block iff each coordinate is in the block's range on its axis. -/
theorem mem_block (t : Fin cfg2.N) (i : S65536x128.Idx) :
    i ∈ ((cfg2.win 2).blk t).view.set
      ↔ ∀ a : Fin 2, win2_2.index t a * S4096x128.size a ≤ (i a).val
          ∧ (i a).val < win2_2.index t a * S4096x128.size a + S4096x128.size a := by
  show i ∈ ((View.whole main_v46).slice (win2_2.rect t)).set ↔ _
  rw [View.set_slice_whole, Rect.mem_set_unit]
  exact Iff.rfl

/-- Every entry of the result lies in the row block its row falls in. -/
theorem covered (i : S65536x128.Idx) :
    ∃ t : Fin cfg2.N, (cfg2.win 2).flush t = true ∧ i ∈ ((cfg2.win 2).blk t).view.set := by
  have hi0 : (i 0).val < 65536 := (i 0).isLt
  have hi1 : (i 1).val < 128 := (i 1).isLt
  refine ⟨⟨(i 0).val / 4096, by show (i 0).val / 4096 < 16; omega⟩, flush2_2 _, ?_⟩
  rw [mem_block]
  obtain ⟨e0, e1, e2, e3, e4, e5⟩ := block_index ⟨(i 0).val / 4096, by show (i 0).val / 4096 < 16; omega⟩
  intro a
  match a with
  | ⟨0, _⟩ =>
    show win2_2.index _ (0 : Fin 2) * 4096 ≤ (i 0).val ∧ (i 0).val < win2_2.index _ (0 : Fin 2) * 4096 + 4096
    rw [e4]; show (i 0).val / 4096 * 4096 ≤ (i 0).val ∧ (i 0).val < (i 0).val / 4096 * 4096 + 4096; omega
  | ⟨1, _⟩ =>
    show win2_2.index _ (1 : Fin 2) * 128 ≤ (i 1).val ∧ (i 1).val < win2_2.index _ (1 : Fin 2) * 128 + 128
    rw [e5]; omega

/-- After the region the result array is the product of the features and the weights as the region found them. -/
theorem final (c : Dev nD) :
    (dat2 V c).arrAt 2 cfg2.N = prod (V c main_v45) (V c main_arg3) :=
  (dat2 V c).arrAt_eq_of_cover 2 (prod (V c main_v45) (V c main_arg3)) (fun t _ => flushed_eq V c t) covered

end Cert.KernelIdeal.Lin2

end
-- ==== Proof.Act3.lean ====
/-
  Region 3 of the kernel program: the second layer's bias and clamp.

  The region walks the 65536 rows of the aggregated messages in 16 blocks of 4096 rows.  At block `t` the body holds
  rows 4096·t … 4096·t + 4095 of the aggregate (all 128 columns) and the bias as a one-row matrix, spreads the bias
  over the rows, adds, and takes the maximum with zero.  Entry (p, q) of what it stores is
  max (agg (4096·t + p, q) + bias (0, q), 0): row 4096·t + p of the same function of the two whole arrays.  The 16 row
  blocks tile the 65536 × 128 result, so after the region the result array is that function of the two arrays as the
  region found them.
-/
import proofs.«143135_j5463198401300_1_alg».proof.Proof.Gen.KernelIdeal.Frame
import proofs.«143135_j5463198401300_1_alg».proof.Proof.LibRowBias
import Idealize.ShloMosaic.Lib.Pipeline.Value
import Idealize.ShloMosaic.Lib.ValueIdx

set_option maxRecDepth 16384

noncomputable section

namespace Cert.KernelIdeal.Act3

open Cert.KernelIdeal Cert.KernelIdeal.Gen Idealize.ShloMosaic Idealize.ShloMosaic.TcCoe Idealize.SL.Sem
open Idealize.ShloMosaic.Pipeline (Dat)
open Idealize.ShloMosaic.ValueIdx Cert.Lib.RowBias

variable (V : (c : Dev nD) → (b : Ref sig .tc) → Buf (Elt Ideal) ((c : Thread nD τ).loc b))

theorem zero_off : (![0, 0] : Fin 2 → Nat) = fun _ => 0 := funext fun a => by fin_cases a <;> rfl

/-- Where the three windows' blocks sit at grid point `t`: the aggregate's and the result's at row block `t`, the
    bias row's always at the origin. -/
theorem block_index : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The body on a row block: if the block `x0` holds the rows of `A` from row `o` on and `x1` is the row `b`,
    entry (p, q) of what the body stores is entry (o + p, q) of the whole function. -/
theorem body_apply (A : S65536x128.Idx → EReal) (b : S1x128.Idx → EReal)
    (x0 : Vec Ideal S4096x128 .f32) (x1 : Vec Ideal S1x128 .f32) (o : ℕ) (ho : o + 4096 ≤ 65536)
    (hx0 : ∀ (p : Fin 4096) (q : Fin 128), x0 (ix2 p q) = A (ix2 ⟨o + p.val, by have := p.isLt; omega⟩ q))
    (hx1 : ∀ q : Fin 128, x1 (ix2 (0 : Fin 1) q) = b (ix2 (0 : Fin 1) q)) (p : Fin 4096) (q : Fin 128) :
    k3_pay1 (F := Ideal) x0 x1 (ix2 p q) = addRowRelu A b (ix2 ⟨o + p.val, by have := p.isLt; omega⟩ q) := by
  unfold k3_pay1
  exact block_addRowRelu A b x0 x1 _ _ _ o ho hx0 hx1 p q

/-- What grid point `t` writes back is block `t` of the whole function. -/
theorem flushed_eq (c : Dev nD) (t : Fin cfg3.N) :
    (dat3 V c).flushed 2 t
      = ((cfg3.win 2).blk t).view.read (Elt Ideal) (addRowRelu (V c main_v59) (V c main_v60)) := by
  show (cfg3.win 2).cut (grid3.coords t) ((dat3 V c).after 2 t) = _
  rw [after3_2]
  unfold out3_2
  rw [View.canon_unit_zero zero_off]
  simp only [View.ld_unit_zero (S := S4096x128) zero_off, View.ld_unit_zero (S := S1x128) zero_off]
  obtain ⟨e0, e1, e2, e3, e4, e5⟩ := block_index t
  have ht : t.val < 16 := t.isLt
  funext j
  obtain ⟨p, q, rfl⟩ : ∃ (p : Fin 4096) (q : Fin 128), j = ix2 p q := ⟨j 0, j 1, eq_ix2 j⟩
  have hrow : ((cfg3.win 2).blk t).view.emb (ix2 p q) = ix2 ⟨t.val * 4096 + p.val, by have := p.isLt; omega⟩ q := by
    funext a; apply Fin.ext
    match a with
    | ⟨0, _⟩ => show win3_2.index t (0 : Fin 2) * 4096 + 1 * p.val = t.val * 4096 + p.val; omega
    | ⟨1, _⟩ => show win3_2.index t (1 : Fin 2) * 128 + 1 * q.val = q.val; omega
  show k3_pay1 (F := Ideal) (iblk3 V c 0 t) (iblk3 V c 1 t) (ix2 p q)
    = addRowRelu (V c main_v59) (V c main_v60) (((cfg3.win 2).blk t).view.emb (ix2 p q))
  rw [hrow]
  refine body_apply (V c main_v59) (V c main_v60) _ _ (t.val * 4096) (by omega) ?_ ?_ p q
  · intro p q
    show V c main_v59 (((cfg3.win 0).blk t).view.emb (ix2 p q)) = _
    refine congrArg _ ?_
    funext a; apply Fin.ext
    match a with
    | ⟨0, _⟩ => show win3_0.index t (0 : Fin 2) * 4096 + 1 * p.val = t.val * 4096 + p.val; omega
    | ⟨1, _⟩ => show win3_0.index t (1 : Fin 2) * 128 + 1 * q.val = q.val; omega
  · intro q
    show V c main_v60 (((cfg3.win 1).blk t).view.emb (ix2 (0 : Fin 1) q)) = _
    refine congrArg _ ?_
    funext a; apply Fin.ext
    match a with
    | ⟨0, _⟩ => show win3_1.index t (0 : Fin 2) * 1 + 1 * 0 = 0; omega
    | ⟨1, _⟩ => show win3_1.index t (1 : Fin 2) * 128 + 1 * q.val = q.val; omega

/-- An index of the result array is in point `t`'s block iff each coordinate is in the block's range on its axis. -/
theorem mem_block (t : Fin cfg3.N) (i : S65536x128.Idx) :
    i ∈ ((cfg3.win 2).blk t).view.set
      ↔ ∀ a : Fin 2, win3_2.index t a * S4096x128.size a ≤ (i a).val
          ∧ (i a).val < win3_2.index t a * S4096x128.size a + S4096x128.size a := by
  show i ∈ ((View.whole main_v61).slice (win3_2.rect t)).set ↔ _
  rw [View.set_slice_whole, Rect.mem_set_unit]
  exact Iff.rfl

/-- Every entry of the result lies in the row block its row falls in. -/
theorem covered (i : S65536x128.Idx) :
    ∃ t : Fin cfg3.N, (cfg3.win 2).flush t = true ∧ i ∈ ((cfg3.win 2).blk t).view.set := by
  have hi0 : (i 0).val < 65536 := (i 0).isLt
  have hi1 : (i 1).val < 128 := (i 1).isLt
  refine ⟨⟨(i 0).val / 4096, by show (i 0).val / 4096 < 16; omega⟩, flush3_2 _, ?_⟩
  rw [mem_block]
  obtain ⟨e0, e1, e2, e3, e4, e5⟩ := block_index ⟨(i 0).val / 4096, by show (i 0).val / 4096 < 16; omega⟩
  intro a
  match a with
  | ⟨0, _⟩ =>
    show win3_2.index _ (0 : Fin 2) * 4096 ≤ (i 0).val ∧ (i 0).val < win3_2.index _ (0 : Fin 2) * 4096 + 4096
    rw [e4]; show (i 0).val / 4096 * 4096 ≤ (i 0).val ∧ (i 0).val < (i 0).val / 4096 * 4096 + 4096; omega
  | ⟨1, _⟩ =>
    show win3_2.index _ (1 : Fin 2) * 128 ≤ (i 1).val ∧ (i 1).val < win3_2.index _ (1 : Fin 2) * 128 + 128
    rw [e5]; omega

/-- After the region the result array is the clamped sum of the aggregate and the bias row as the region found them. -/
theorem final (c : Dev nD) :
    (dat3 V c).arrAt 2 cfg3.N = addRowRelu (V c main_v59) (V c main_v60) :=
  (dat3 V c).arrAt_eq_of_cover 2 (addRowRelu (V c main_v59) (V c main_v60)) (fun t _ => flushed_eq V c t) covered

end Cert.KernelIdeal.Act3

end
-- ==== Proof.Lin4.lean ====
/-
  Region 4 of the kernel program: the third layer's linear map.

  The region walks the 65536 rows of the second layer's activations in 16 blocks of 4096 rows.  At block `t` the body holds rows
  4096·t … 4096·t + 4095 of the activations (all 128 columns) and the whole 128 × 64 weight matrix, rounds both to a
  narrower float format — which at the extended reals changes nothing — and multiplies them into a zero
  accumulator.  Entry (p, q) of that block product is the sum over k of x(4096·t + p, k) · w(k, q): row 4096·t + p of
  the product of the two whole matrices.  The 16 row blocks tile the 65536 × 64 result, so after the region the
  result array is the whole matrix product of the two arrays as the region found them.
-/
import proofs.«143135_j5463198401300_1_alg».proof.Proof.Gen.KernelIdeal.Frame
import proofs.«143135_j5463198401300_1_alg».proof.Proof.LibRowBlockProduct
import Idealize.ShloMosaic.Lib.Pipeline.Value
import Idealize.ShloMosaic.Lib.ValueIdx

set_option maxRecDepth 16384

noncomputable section

namespace Cert.KernelIdeal.Lin4

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.PlainDot Idealize.ShloMosaic.RowBlockProduct

variable (V : (c : Dev nD) → (b : Ref sig .tc) → Buf (Elt Ideal) ((c : Thread nD τ).loc b))

theorem zero_off : (![0, 0] : Fin 2 → Nat) = fun _ => 0 := funext fun a => by fin_cases a <;> rfl

/-- The block product contracts the features' columns with the weights' rows and has no batch axis. -/
theorem plain : IsPlain (R := 4096) (K := 128) (N := 64) dot_S4096x128_S128x64_S4096x64_1_0_0_1_n_n :=
  ⟨rfl, rfl, rfl, rfl, rfl, rfl⟩

/-- Where the three windows' blocks sit at grid point `t`: the features' and the result's at row block `t`, the
    weights' always at the origin. -/
theorem block_index : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The body's product of a row block: if the block `x0` holds the rows of `A` from row `o` on and `x1` is `B`,
    entry (p, q) of what the body stores is entry (o + p, q) of the whole product. -/
theorem body_apply (A : S65536x128.Idx → EReal) (B : S128x64.Idx → EReal)
    (x0 : Vec Ideal S4096x128 .f32) (x1 : Vec Ideal S128x64 .f32) (o : ℕ) (ho : o + 4096 ≤ 65536)
    (hx0 : ∀ (p : Fin 4096) (k : Fin 128), x0 (ix2 p k) = A (ix2 ⟨o + p.val, by have := p.isLt; omega⟩ k))
    (hx1 : ∀ (k : Fin 128) (q : Fin 64), x1 (ix2 k q) = B (ix2 k q)) (p : Fin 4096) (q : Fin 64) :
    k4_pay1 (F := Ideal) x0 x1 (ix2 p q) = prod A B (ix2 ⟨o + p.val, by have := p.isLt; omega⟩ q) := by
  unfold k4_pay1
  rw [shapeCast_self]
  exact matmul_rows plain none A B _ _ o ho hx0 hx1 p q

/-- What grid point `t` writes back is block `t` of the whole product. -/
theorem flushed_eq (c : Dev nD) (t : Fin cfg4.N) :
    (dat4 V c).flushed 2 t
      = ((cfg4.win 2).blk t).view.read (Elt Ideal) (prod (V c main_v61) (V c main_arg5)) := by
  show (cfg4.win 2).cut (grid4.coords t) ((dat4 V c).after 2 t) = _
  rw [after4_2]
  unfold out4_2
  rw [View.canon_unit_zero zero_off]
  simp only [View.ld_unit_zero (S := S4096x128) zero_off, View.ld_unit_zero (S := S128x64) zero_off]
  obtain ⟨e0, e1, e2, e3, e4, e5⟩ := block_index t
  have ht : t.val < 16 := t.isLt
  funext j
  obtain ⟨p, q, rfl⟩ : ∃ (p : Fin 4096) (q : Fin 64), j = ix2 p q := ⟨j 0, j 1, eq_ix2 j⟩
  have hrow : ((cfg4.win 2).blk t).view.emb (ix2 p q) = ix2 ⟨t.val * 4096 + p.val, by have := p.isLt; omega⟩ q := by
    funext a; apply Fin.ext
    match a with
    | ⟨0, _⟩ => show win4_2.index t (0 : Fin 2) * 4096 + 1 * p.val = t.val * 4096 + p.val; omega
    | ⟨1, _⟩ => show win4_2.index t (1 : Fin 2) * 64 + 1 * q.val = q.val; omega
  show k4_pay1 (F := Ideal) (iblk4 V c 0 t) (iblk4 V c 1 t) (ix2 p q)
    = prod (V c main_v61) (V c main_arg5) (((cfg4.win 2).blk t).view.emb (ix2 p q))
  rw [hrow]
  refine body_apply (V c main_v61) (V c main_arg5) _ _ (t.val * 4096) (by omega) ?_ ?_ p q
  · intro p k
    show V c main_v61 (((cfg4.win 0).blk t).view.emb (ix2 p k)) = _
    refine congrArg _ ?_
    funext a; apply Fin.ext
    match a with
    | ⟨0, _⟩ => show win4_0.index t (0 : Fin 2) * 4096 + 1 * p.val = t.val * 4096 + p.val; omega
    | ⟨1, _⟩ => show win4_0.index t (1 : Fin 2) * 128 + 1 * k.val = k.val; omega
  · intro k q
    show V c main_arg5 (((cfg4.win 1).blk t).view.emb (ix2 k q)) = _
    refine congrArg _ ?_
    funext a; apply Fin.ext
    match a with
    | ⟨0, _⟩ => show win4_1.index t (0 : Fin 2) * 128 + 1 * k.val = k.val; omega
    | ⟨1, _⟩ => show win4_1.index t (1 : Fin 2) * 64 + 1 * q.val = q.val; omega

/-- An index of the result array is in point `t`'s block iff each coordinate is in the block's range on its axis. -/
theorem mem_block (t : Fin cfg4.N) (i : S65536x64.Idx) :
    i ∈ ((cfg4.win 2).blk t).view.set
      ↔ ∀ a : Fin 2, win4_2.index t a * S4096x64.size a ≤ (i a).val
          ∧ (i a).val < win4_2.index t a * S4096x64.size a + S4096x64.size a := by
  show i ∈ ((View.whole main_v62).slice (win4_2.rect t)).set ↔ _
  rw [View.set_slice_whole, Rect.mem_set_unit]
  exact Iff.rfl

/-- Every entry of the result lies in the row block its row falls in. -/
theorem covered (i : S65536x64.Idx) :
    ∃ t : Fin cfg4.N, (cfg4.win 2).flush t = true ∧ i ∈ ((cfg4.win 2).blk t).view.set := by
  have hi0 : (i 0).val < 65536 := (i 0).isLt
  have hi1 : (i 1).val < 64 := (i 1).isLt
  refine ⟨⟨(i 0).val / 4096, by show (i 0).val / 4096 < 16; omega⟩, flush4_2 _, ?_⟩
  rw [mem_block]
  obtain ⟨e0, e1, e2, e3, e4, e5⟩ := block_index ⟨(i 0).val / 4096, by show (i 0).val / 4096 < 16; omega⟩
  intro a
  match a with
  | ⟨0, _⟩ =>
    show win4_2.index _ (0 : Fin 2) * 4096 ≤ (i 0).val ∧ (i 0).val < win4_2.index _ (0 : Fin 2) * 4096 + 4096
    rw [e4]; show (i 0).val / 4096 * 4096 ≤ (i 0).val ∧ (i 0).val < (i 0).val / 4096 * 4096 + 4096; omega
  | ⟨1, _⟩ =>
    show win4_2.index _ (1 : Fin 2) * 64 ≤ (i 1).val ∧ (i 1).val < win4_2.index _ (1 : Fin 2) * 64 + 64
    rw [e5]; omega

/-- After the region the result array is the product of the features and the weights as the region found them. -/
theorem final (c : Dev nD) :
    (dat4 V c).arrAt 2 cfg4.N = prod (V c main_v61) (V c main_arg5) :=
  (dat4 V c).arrAt_eq_of_cover 2 (prod (V c main_v61) (V c main_arg5)) (fun t _ => flushed_eq V c t) covered

end Cert.KernelIdeal.Lin4

end
-- ==== Proof.Act5.lean ====
/-
  Region 5 of the kernel program: the third layer's bias.

  The region walks the 65536 rows of the aggregated messages in 16 blocks of 4096 rows.  At block `t` the body holds
  rows 4096·t … 4096·t + 4095 of the aggregate (all 64 columns) and the bias as a one-row matrix, spreads the bias
  over the rows and adds.  Entry (p, q) of what it stores is
  agg (4096·t + p, q) + bias (0, q): row 4096·t + p of the same function of the two whole arrays.  The 16 row
  blocks tile the 65536 × 64 result, so after the region the result array is that function of the two arrays as the
  region found them.
-/
import proofs.«143135_j5463198401300_1_alg».proof.Proof.Gen.KernelIdeal.Frame
import proofs.«143135_j5463198401300_1_alg».proof.Proof.LibRowBias
import Idealize.ShloMosaic.Lib.Pipeline.Value
import Idealize.ShloMosaic.Lib.ValueIdx

set_option maxRecDepth 16384

noncomputable section

namespace Cert.KernelIdeal.Act5

open Cert.KernelIdeal Cert.KernelIdeal.Gen Idealize.ShloMosaic Idealize.ShloMosaic.TcCoe Idealize.SL.Sem
open Idealize.ShloMosaic.Pipeline (Dat)
open Idealize.ShloMosaic.ValueIdx Cert.Lib.RowBias

variable (V : (c : Dev nD) → (b : Ref sig .tc) → Buf (Elt Ideal) ((c : Thread nD τ).loc b))

theorem zero_off : (![0, 0] : Fin 2 → Nat) = fun _ => 0 := funext fun a => by fin_cases a <;> rfl

/-- Where the three windows' blocks sit at grid point `t`: the aggregate's and the result's at row block `t`, the
    bias row's always at the origin. -/
theorem block_index : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The body on a row block: if the block `x0` holds the rows of `A` from row `o` on and `x1` is the row `b`,
    entry (p, q) of what the body stores is entry (o + p, q) of the whole function. -/
theorem body_apply (A : S65536x64.Idx → EReal) (b : S1x64.Idx → EReal)
    (x0 : Vec Ideal S4096x64 .f32) (x1 : Vec Ideal S1x64 .f32) (o : ℕ) (ho : o + 4096 ≤ 65536)
    (hx0 : ∀ (p : Fin 4096) (q : Fin 64), x0 (ix2 p q) = A (ix2 ⟨o + p.val, by have := p.isLt; omega⟩ q))
    (hx1 : ∀ q : Fin 64, x1 (ix2 (0 : Fin 1) q) = b (ix2 (0 : Fin 1) q)) (p : Fin 4096) (q : Fin 64) :
    k5_pay1 (F := Ideal) x0 x1 (ix2 p q) = addRow A b (ix2 ⟨o + p.val, by have := p.isLt; omega⟩ q) := by
  unfold k5_pay1
  exact block_addRow A b x0 x1 _ _ _ o ho hx0 hx1 p q

/-- What grid point `t` writes back is block `t` of the whole function. -/
theorem flushed_eq (c : Dev nD) (t : Fin cfg5.N) :
    (dat5 V c).flushed 2 t
      = ((cfg5.win 2).blk t).view.read (Elt Ideal) (addRow (V c main_v75) (V c main_v76)) := by
  show (cfg5.win 2).cut (grid5.coords t) ((dat5 V c).after 2 t) = _
  rw [after5_2]
  unfold out5_2
  rw [View.canon_unit_zero zero_off]
  simp only [View.ld_unit_zero (S := S4096x64) zero_off, View.ld_unit_zero (S := S1x64) zero_off]
  obtain ⟨e0, e1, e2, e3, e4, e5⟩ := block_index t
  have ht : t.val < 16 := t.isLt
  funext j
  obtain ⟨p, q, rfl⟩ : ∃ (p : Fin 4096) (q : Fin 64), j = ix2 p q := ⟨j 0, j 1, eq_ix2 j⟩
  have hrow : ((cfg5.win 2).blk t).view.emb (ix2 p q) = ix2 ⟨t.val * 4096 + p.val, by have := p.isLt; omega⟩ q := by
    funext a; apply Fin.ext
    match a with
    | ⟨0, _⟩ => show win5_2.index t (0 : Fin 2) * 4096 + 1 * p.val = t.val * 4096 + p.val; omega
    | ⟨1, _⟩ => show win5_2.index t (1 : Fin 2) * 64 + 1 * q.val = q.val; omega
  show k5_pay1 (F := Ideal) (iblk5 V c 0 t) (iblk5 V c 1 t) (ix2 p q)
    = addRow (V c main_v75) (V c main_v76) (((cfg5.win 2).blk t).view.emb (ix2 p q))
  rw [hrow]
  refine body_apply (V c main_v75) (V c main_v76) _ _ (t.val * 4096) (by omega) ?_ ?_ p q
  · intro p q
    show V c main_v75 (((cfg5.win 0).blk t).view.emb (ix2 p q)) = _
    refine congrArg _ ?_
    funext a; apply Fin.ext
    match a with
    | ⟨0, _⟩ => show win5_0.index t (0 : Fin 2) * 4096 + 1 * p.val = t.val * 4096 + p.val; omega
    | ⟨1, _⟩ => show win5_0.index t (1 : Fin 2) * 64 + 1 * q.val = q.val; omega
  · intro q
    show V c main_v76 (((cfg5.win 1).blk t).view.emb (ix2 (0 : Fin 1) q)) = _
    refine congrArg _ ?_
    funext a; apply Fin.ext
    match a with
    | ⟨0, _⟩ => show win5_1.index t (0 : Fin 2) * 1 + 1 * 0 = 0; omega
    | ⟨1, _⟩ => show win5_1.index t (1 : Fin 2) * 64 + 1 * q.val = q.val; omega

/-- An index of the result array is in point `t`'s block iff each coordinate is in the block's range on its axis. -/
theorem mem_block (t : Fin cfg5.N) (i : S65536x64.Idx) :
    i ∈ ((cfg5.win 2).blk t).view.set
      ↔ ∀ a : Fin 2, win5_2.index t a * S4096x64.size a ≤ (i a).val
          ∧ (i a).val < win5_2.index t a * S4096x64.size a + S4096x64.size a := by
  show i ∈ ((View.whole main_v77).slice (win5_2.rect t)).set ↔ _
  rw [View.set_slice_whole, Rect.mem_set_unit]
  exact Iff.rfl

/-- Every entry of the result lies in the row block its row falls in. -/
theorem covered (i : S65536x64.Idx) :
    ∃ t : Fin cfg5.N, (cfg5.win 2).flush t = true ∧ i ∈ ((cfg5.win 2).blk t).view.set := by
  have hi0 : (i 0).val < 65536 := (i 0).isLt
  have hi1 : (i 1).val < 64 := (i 1).isLt
  refine ⟨⟨(i 0).val / 4096, by show (i 0).val / 4096 < 16; omega⟩, flush5_2 _, ?_⟩
  rw [mem_block]
  obtain ⟨e0, e1, e2, e3, e4, e5⟩ := block_index ⟨(i 0).val / 4096, by show (i 0).val / 4096 < 16; omega⟩
  intro a
  match a with
  | ⟨0, _⟩ =>
    show win5_2.index _ (0 : Fin 2) * 4096 ≤ (i 0).val ∧ (i 0).val < win5_2.index _ (0 : Fin 2) * 4096 + 4096
    rw [e4]; show (i 0).val / 4096 * 4096 ≤ (i 0).val ∧ (i 0).val < (i 0).val / 4096 * 4096 + 4096; omega
  | ⟨1, _⟩ =>
    show win5_2.index _ (1 : Fin 2) * 64 ≤ (i 1).val ∧ (i 1).val < win5_2.index _ (1 : Fin 2) * 64 + 64
    rw [e5]; omega

/-- After the region the result array is the sum of the aggregate and the bias row as the region found them. -/
theorem final (c : Dev nD) :
    (dat5 V c).arrAt 2 cfg5.N = addRow (V c main_v75) (V c main_v76) :=
  (dat5 V c).arrAt_eq_of_cover 2 (addRow (V c main_v75) (V c main_v76)) (fun t _ => flushed_eq V c t) covered

end Cert.KernelIdeal.Act5

end
-- ==== Proof.Stretch.lean ====
/-
  The host operations of the kernel program between its regions, read against the reference's.

  The kernel program's @main runs, around its six regions, the same host operations as the reference: the edge lists
  with the self loops appended, the degrees by a scatter-add of ones, the symmetric normalisation, and per layer the
  gather of the transformed rows at the sources, the product with the normalisation, and the scatter-add at the
  destinations.  Each stretch of such operations is a fold over the buffer contents it starts from.  Stated here, for
  any contents `W` at the start of a stretch and any float family: the buffer a stretch computes holds the reference's
  value of the same name-by-name operations, provided the buffers the stretch reads hold the reference's values; and a
  buffer no operation of the stretch writes keeps its contents.  Nothing is computed: both sides are the same
  operations applied to the same operands.
-/
import proofs.«143135_j5463198401300_1_alg».proof.Proof.Gen.KernelIdeal.Launch
import proofs.«143135_j5463198401300_1_alg».proof.Proof.RefRead
import Idealize.ShloMosaic.Lib.StableHlo.Run

noncomputable section

namespace Cert.KernelIdeal.Stretch

open Cert.KernelIdeal Cert.KernelIdeal.Gen Idealize.ShloMosaic Idealize.ShloMosaic.TcCoe Idealize.SL.Sem Idealize.ShloMosaic.StableHlo

variable {F : FTy → Type} [FloatOps F]
variable (W : Valuation τ sig (Elt F))

/-! ## Before the first region: the edge lists, the degrees, the normalisation -/

/-- The sources with the self loops appended. -/
theorem pre0_v3 : after hostOps0 W (Proc.devRef .tc main_v3) = Cert.ReferenceIdeal.ReadP.val_main_v3 (F := F) (W (Proc.devRef .tc main_arg7)) := by
  after_results_simp
  rfl

/-- The destinations with the self loops appended. -/
theorem pre0_v6 : after hostOps0 W (Proc.devRef .tc main_v6) = Cert.ReferenceIdeal.ReadP.val_main_v6 (F := F) (W (Proc.devRef .tc main_arg7)) := by
  after_results_simp
  rfl

set_option maxHeartbeats 2000000 in
/-- Which degrees are positive. -/
theorem pre0_v12 : after hostOps0 W (Proc.devRef .tc main_v12) = Cert.ReferenceIdeal.ReadP.val_main_v12 (F := F) (W (Proc.devRef .tc main_arg7)) := by
  after_results_simp
  rfl

set_option maxHeartbeats 2000000 in
/-- The reciprocal square roots of the degrees. -/
theorem pre0_v13 : after hostOps0 W (Proc.devRef .tc main_v13) = Cert.ReferenceIdeal.ReadP.val_main_v13 (F := F) (W (Proc.devRef .tc main_arg7)) := by
  after_results_simp
  rfl

/-- The zero that stands where a degree is not positive. -/
theorem pre0_cst_2 : after hostOps0 W (Proc.devRef .tc main_cst_2) = Cert.ReferenceIdeal.ReadP.val_main_cst_2 (F := F) := by
  after_results_simp
  rfl

/-- The normalisation's per-node factor: the reciprocal square root of the degree where it is positive, else zero. -/
theorem pre1_v14 (x7 : (⟨S2x1048576, .i32⟩ : BufTy).Contents (Elt F))
    (h12 : W (Proc.devRef .tc main_v12) = Cert.ReferenceIdeal.ReadP.val_main_v12 (F := F) x7)
    (h13 : W (Proc.devRef .tc main_v13) = Cert.ReferenceIdeal.ReadP.val_main_v13 (F := F) x7)
    (hc : W (Proc.devRef .tc main_cst_2) = Cert.ReferenceIdeal.ReadP.val_main_cst_2 (F := F)) :
    after hostOps0_1 W (Proc.devRef .tc main_v14) = Cert.ReferenceIdeal.ReadP.val_main_v14 (F := F) x7 := by
  after_results_simp
  rw [h12, h13, hc]
  rfl

set_option maxHeartbeats 2000000 in
/-- The normalisation per edge: the factor at the source times the factor at the destination. -/
theorem pre2_v29 (x7 : (⟨S2x1048576, .i32⟩ : BufTy).Contents (Elt F))
    (h14 : W (Proc.devRef .tc main_v14) = Cert.ReferenceIdeal.ReadP.val_main_v14 (F := F) x7)
    (h3 : W (Proc.devRef .tc main_v3) = Cert.ReferenceIdeal.ReadP.val_main_v3 (F := F) x7)
    (h6 : W (Proc.devRef .tc main_v6) = Cert.ReferenceIdeal.ReadP.val_main_v6 (F := F) x7) :
    after hostOps0_2 W (Proc.devRef .tc main_v29) = Cert.ReferenceIdeal.ReadP.val_main_v29 (F := F) x7 := by
  after_results_simp
  rw [h14, h3, h6]
  rfl

theorem pre1_keep_v3 : after hostOps0_1 W (Proc.devRef .tc main_v3) = W (Proc.devRef .tc main_v3) := by
  after_results_simp
theorem pre2_keep_v3 : after hostOps0_2 W (Proc.devRef .tc main_v3) = W (Proc.devRef .tc main_v3) := by
  after_results_simp
theorem pre1_keep_v6 : after hostOps0_1 W (Proc.devRef .tc main_v6) = W (Proc.devRef .tc main_v6) := by
  after_results_simp
theorem pre2_keep_v6 : after hostOps0_2 W (Proc.devRef .tc main_v6) = W (Proc.devRef .tc main_v6) := by
  after_results_simp
theorem pre0_keep_arg0 : after hostOps0 W (Proc.devRef .tc main_arg0) = W (Proc.devRef .tc main_arg0) := by
  after_results_simp
theorem pre1_keep_arg0 : after hostOps0_1 W (Proc.devRef .tc main_arg0) = W (Proc.devRef .tc main_arg0) := by
  after_results_simp
theorem pre2_keep_arg0 : after hostOps0_2 W (Proc.devRef .tc main_arg0) = W (Proc.devRef .tc main_arg0) := by
  after_results_simp
theorem pre0_keep_arg1 : after hostOps0 W (Proc.devRef .tc main_arg1) = W (Proc.devRef .tc main_arg1) := by
  after_results_simp
theorem pre1_keep_arg1 : after hostOps0_1 W (Proc.devRef .tc main_arg1) = W (Proc.devRef .tc main_arg1) := by
  after_results_simp
theorem pre2_keep_arg1 : after hostOps0_2 W (Proc.devRef .tc main_arg1) = W (Proc.devRef .tc main_arg1) := by
  after_results_simp
theorem pre0_keep_arg2 : after hostOps0 W (Proc.devRef .tc main_arg2) = W (Proc.devRef .tc main_arg2) := by
  after_results_simp
theorem pre1_keep_arg2 : after hostOps0_1 W (Proc.devRef .tc main_arg2) = W (Proc.devRef .tc main_arg2) := by
  after_results_simp
theorem pre2_keep_arg2 : after hostOps0_2 W (Proc.devRef .tc main_arg2) = W (Proc.devRef .tc main_arg2) := by
  after_results_simp
theorem pre0_keep_arg3 : after hostOps0 W (Proc.devRef .tc main_arg3) = W (Proc.devRef .tc main_arg3) := by
  after_results_simp
theorem pre1_keep_arg3 : after hostOps0_1 W (Proc.devRef .tc main_arg3) = W (Proc.devRef .tc main_arg3) := by
  after_results_simp
theorem pre2_keep_arg3 : after hostOps0_2 W (Proc.devRef .tc main_arg3) = W (Proc.devRef .tc main_arg3) := by
  after_results_simp
theorem pre0_keep_arg4 : after hostOps0 W (Proc.devRef .tc main_arg4) = W (Proc.devRef .tc main_arg4) := by
  after_results_simp
theorem pre1_keep_arg4 : after hostOps0_1 W (Proc.devRef .tc main_arg4) = W (Proc.devRef .tc main_arg4) := by
  after_results_simp
theorem pre2_keep_arg4 : after hostOps0_2 W (Proc.devRef .tc main_arg4) = W (Proc.devRef .tc main_arg4) := by
  after_results_simp
theorem pre0_keep_arg5 : after hostOps0 W (Proc.devRef .tc main_arg5) = W (Proc.devRef .tc main_arg5) := by
  after_results_simp
theorem pre1_keep_arg5 : after hostOps0_1 W (Proc.devRef .tc main_arg5) = W (Proc.devRef .tc main_arg5) := by
  after_results_simp
theorem pre2_keep_arg5 : after hostOps0_2 W (Proc.devRef .tc main_arg5) = W (Proc.devRef .tc main_arg5) := by
  after_results_simp
theorem pre0_keep_arg6 : after hostOps0 W (Proc.devRef .tc main_arg6) = W (Proc.devRef .tc main_arg6) := by
  after_results_simp
theorem pre1_keep_arg6 : after hostOps0_1 W (Proc.devRef .tc main_arg6) = W (Proc.devRef .tc main_arg6) := by
  after_results_simp
theorem pre2_keep_arg6 : after hostOps0_2 W (Proc.devRef .tc main_arg6) = W (Proc.devRef .tc main_arg6) := by
  after_results_simp
theorem pre0_keep_arg7 : after hostOps0 W (Proc.devRef .tc main_arg7) = W (Proc.devRef .tc main_arg7) := by
  after_results_simp

/-! ## After the first layer's linear map: its aggregation, and the bias recast as a row -/

set_option maxHeartbeats 2000000 in
/-- The first layer's aggregate: the transformed rows gathered at the sources, scaled by the normalisation, summed at
    the destinations. -/
theorem s1_v43 (x0 : (⟨S65536x64, .f32⟩ : BufTy).Contents (Elt F)) (x1 : (⟨S64x128, .f32⟩ : BufTy).Contents (Elt F)) (x7 : (⟨S2x1048576, .i32⟩ : BufTy).Contents (Elt F))
    (hh : W (Proc.devRef .tc main_v30) = Cert.ReferenceIdeal.ReadP.val_main_v30 (F := F) x0 x1)
    (h3 : W (Proc.devRef .tc main_v3) = Cert.ReferenceIdeal.ReadP.val_main_v3 (F := F) x7)
    (h6 : W (Proc.devRef .tc main_v6) = Cert.ReferenceIdeal.ReadP.val_main_v6 (F := F) x7)
    (h29 : W (Proc.devRef .tc main_v29) = Cert.ReferenceIdeal.ReadP.val_main_v29 (F := F) x7) :
    after hostOps1 W (Proc.devRef .tc main_v43) = Cert.ReferenceIdeal.ReadP.val_main_v43 (F := F) x0 x1 x7 := by
  after_results_simp
  rw [hh, h3, h6, h29]
  rfl

/-- The first layer's bias as a one-row matrix. -/
theorem s1_v44 : after hostOps1 W (Proc.devRef .tc main_v44)
    = shapeCast S1x128 (W (Proc.devRef .tc main_arg2)) shapeCasts_S128_S1x128 := by
  after_results_simp
  rfl

theorem s1_keep_v3 : after hostOps1 W (Proc.devRef .tc main_v3) = W (Proc.devRef .tc main_v3) := by
  after_results_simp
theorem s1_keep_v6 : after hostOps1 W (Proc.devRef .tc main_v6) = W (Proc.devRef .tc main_v6) := by
  after_results_simp
theorem s1_keep_v29 : after hostOps1 W (Proc.devRef .tc main_v29) = W (Proc.devRef .tc main_v29) := by
  after_results_simp
theorem s1_keep_arg3 : after hostOps1 W (Proc.devRef .tc main_arg3) = W (Proc.devRef .tc main_arg3) := by
  after_results_simp
theorem s1_keep_arg4 : after hostOps1 W (Proc.devRef .tc main_arg4) = W (Proc.devRef .tc main_arg4) := by
  after_results_simp
theorem s1_keep_arg5 : after hostOps1 W (Proc.devRef .tc main_arg5) = W (Proc.devRef .tc main_arg5) := by
  after_results_simp
theorem s1_keep_arg6 : after hostOps1 W (Proc.devRef .tc main_arg6) = W (Proc.devRef .tc main_arg6) := by
  after_results_simp

/-! ## After the second layer's linear map -/

set_option maxHeartbeats 2000000 in
/-- The second layer's aggregate. -/
theorem s3_v59 (x0 : (⟨S65536x64, .f32⟩ : BufTy).Contents (Elt F)) (x1 : (⟨S64x128, .f32⟩ : BufTy).Contents (Elt F)) (x2 : (⟨S128, .f32⟩ : BufTy).Contents (Elt F)) (x3 : (⟨S128x128, .f32⟩ : BufTy).Contents (Elt F)) (x7 : (⟨S2x1048576, .i32⟩ : BufTy).Contents (Elt F))
    (hh : W (Proc.devRef .tc main_v46) = Cert.ReferenceIdeal.ReadP.val_main_v48 (F := F) x0 x1 x2 x3 x7)
    (h3 : W (Proc.devRef .tc main_v3) = Cert.ReferenceIdeal.ReadP.val_main_v3 (F := F) x7)
    (h6 : W (Proc.devRef .tc main_v6) = Cert.ReferenceIdeal.ReadP.val_main_v6 (F := F) x7)
    (h29 : W (Proc.devRef .tc main_v29) = Cert.ReferenceIdeal.ReadP.val_main_v29 (F := F) x7) :
    after hostOps3 W (Proc.devRef .tc main_v59) = Cert.ReferenceIdeal.ReadP.val_main_v61 (F := F) x0 x1 x2 x3 x7 := by
  after_results_simp
  rw [hh, h3, h6, h29]
  rfl

/-- The second layer's bias as a one-row matrix. -/
theorem s3_v60 : after hostOps3 W (Proc.devRef .tc main_v60)
    = shapeCast S1x128 (W (Proc.devRef .tc main_arg4)) shapeCasts_S128_S1x128 := by
  after_results_simp
  rfl

theorem s3_keep_v3 : after hostOps3 W (Proc.devRef .tc main_v3) = W (Proc.devRef .tc main_v3) := by
  after_results_simp
theorem s3_keep_v6 : after hostOps3 W (Proc.devRef .tc main_v6) = W (Proc.devRef .tc main_v6) := by
  after_results_simp
theorem s3_keep_v29 : after hostOps3 W (Proc.devRef .tc main_v29) = W (Proc.devRef .tc main_v29) := by
  after_results_simp
theorem s3_keep_arg5 : after hostOps3 W (Proc.devRef .tc main_arg5) = W (Proc.devRef .tc main_arg5) := by
  after_results_simp
theorem s3_keep_arg6 : after hostOps3 W (Proc.devRef .tc main_arg6) = W (Proc.devRef .tc main_arg6) := by
  after_results_simp

/-! ## After the third layer's linear map -/

set_option maxHeartbeats 2000000 in
/-- The third layer's aggregate. -/
theorem s5_v75 (x0 : (⟨S65536x64, .f32⟩ : BufTy).Contents (Elt F)) (x1 : (⟨S64x128, .f32⟩ : BufTy).Contents (Elt F)) (x2 : (⟨S128, .f32⟩ : BufTy).Contents (Elt F)) (x3 : (⟨S128x128, .f32⟩ : BufTy).Contents (Elt F)) (x4 : (⟨S128, .f32⟩ : BufTy).Contents (Elt F)) (x5 : (⟨S128x64, .f32⟩ : BufTy).Contents (Elt F)) (x7 : (⟨S2x1048576, .i32⟩ : BufTy).Contents (Elt F))
    (hh : W (Proc.devRef .tc main_v62) = Cert.ReferenceIdeal.ReadP.val_main_v66 (F := F) x0 x1 x2 x3 x4 x5 x7)
    (h3 : W (Proc.devRef .tc main_v3) = Cert.ReferenceIdeal.ReadP.val_main_v3 (F := F) x7)
    (h6 : W (Proc.devRef .tc main_v6) = Cert.ReferenceIdeal.ReadP.val_main_v6 (F := F) x7)
    (h29 : W (Proc.devRef .tc main_v29) = Cert.ReferenceIdeal.ReadP.val_main_v29 (F := F) x7) :
    after hostOps5 W (Proc.devRef .tc main_v75) = Cert.ReferenceIdeal.ReadP.val_main_v79 (F := F) x0 x1 x2 x3 x4 x5 x7 := by
  after_results_simp
  rw [hh, h3, h6, h29]
  rfl

/-- The third layer's bias as a one-row matrix. -/
theorem s5_v76 : after hostOps5 W (Proc.devRef .tc main_v76)
    = shapeCast S1x64 (W (Proc.devRef .tc main_arg6)) shapeCasts_S64_S1x64 := by
  after_results_simp
  rfl

end Cert.KernelIdeal.Stretch

end
-- ==== Proof.LibRowSpread.lean ====
/-
  A vector spread over the rows of a matrix, read at an entry (general in the sizes and the element type).

  A vector `[n]` recast as the one-row matrix `[1, n]` keeps its entries (`asRow_apply`), and the one-row matrix
  broadcast to `[m, n]` has that row in every row (`spreadRows_apply`); together, the entry `(p, q)` of the
  spread vector is the vector's entry `q` (`spread_asRow_apply`). This is what adding a per-column bias to every row
  of a matrix prints in a kernel.
-/
import Idealize.ShloMosaic.Lib.ValueIdx
import Idealize.ShloMosaic.Lib.Pipeline.Value

namespace Cert.Lib.RowSpread

open Idealize.ShloMosaic Idealize.ShloMosaic.ValueIdx

variable {m n : ℕ} {α : Type}

/-- The vector as a one-row matrix: the entry `(0, q)` is the vector's entry `q`. -/
theorem asRow_apply (v : (⟨1, ![n]⟩ : Shape).Idx → α) (h : (⟨1, ![n]⟩ : Shape).ShapeCasts (⟨2, ![1, n]⟩ : Shape))
    (z : Fin 1) (q : Fin n) : shapeCast (⟨2, ![1, n]⟩ : Shape) v h (ix2 z q) = v (ix1 q) := by
  refine shapeCast_apply v h _ _ ?_
  rw [Shape.rowMajor_val_one, Shape.rowMajor_val_two]
  obtain rfl : z = 0 := Subsingleton.elim _ _
  show q.val = 0 * n + q.val
  rw [Nat.zero_mul, Nat.zero_add]

/-- The one-row matrix broadcast down `m` rows: the entry `(p, q)` is the row's entry `q`. -/
theorem spreadRows_apply (x : (⟨2, ![1, n]⟩ : Shape).Idx → α) (h : (⟨2, ![1, n]⟩ : Shape).Broadcasts (⟨2, ![m, n]⟩ : Shape))
    (p : Fin m) (q : Fin n) : broadcastTo (⟨2, ![m, n]⟩ : Shape) x h (ix2 p q) = x (ix2 (0 : Fin 1) q) := by
  refine broadcastTo_apply x h _ _ fun a => ?_
  match a with
  | ⟨0, _⟩ => exact (if_pos rfl).symm
  | ⟨1, _⟩ =>
    show q.val = if n = 1 then 0 else q.val
    by_cases hn : n = 1
    · rw [if_pos hn]; have := q.isLt; omega
    · rw [if_neg hn]

/-- The vector spread over the rows: the entry `(p, q)` is the vector's entry `q`. -/
theorem spread_asRow_apply (v : (⟨1, ![n]⟩ : Shape).Idx → α) (h : (⟨1, ![n]⟩ : Shape).ShapeCasts (⟨2, ![1, n]⟩ : Shape))
    (hb : (⟨2, ![1, n]⟩ : Shape).Broadcasts (⟨2, ![m, n]⟩ : Shape)) (p : Fin m) (q : Fin n) :
    broadcastTo (⟨2, ![m, n]⟩ : Shape) (shapeCast (⟨2, ![1, n]⟩ : Shape) v h) hb (ix2 p q) = v (ix1 q) :=
  (spreadRows_apply _ hb p q).trans (asRow_apply v h 0 q)

end Cert.Lib.RowSpread
-- ==== Proof.RefGlue.lean ====
/-
  The reference's operations, read against the functions the kernel's regions compute (at the extended reals).

  Three facts, each index by index.  The reference's three general dot products carry the plain dimension numbers, so
  each IS the matrix product entry by entry.  The reference adds a layer's bias by spreading the bias vector first to
  a one-row matrix and then down the 65536 rows, and clamps by the maximum with a matrix of zeros; the kernel is handed
  the bias recast as a one-row matrix, spreads that row over its rows, and clamps by the maximum with zero: both give
  max (agg (p, q) + bias (q), 0) at the entry (p, q), and agg (p, q) + bias (q) where there is no clamp.
-/
import proofs.«143135_j5463198401300_1_alg».proof.Proof.RefRead
import proofs.«143135_j5463198401300_1_alg».proof.Proof.LibRowBlockProduct
import proofs.«143135_j5463198401300_1_alg».proof.Proof.LibRowBias
import proofs.«143135_j5463198401300_1_alg».proof.Proof.LibRowSpread
import Idealize.ShloMosaic.Lib.ValueIdx
import Idealize.ShloMosaic.Lib.Pipeline.Value

noncomputable section

namespace Cert.RefGlue

open Idealize.ShloMosaic Idealize.ShloMosaic.TcCoe Idealize.ShloMosaic.ValueIdx
open Idealize.ShloMosaic.PlainDot Idealize.ShloMosaic.RowBlockProduct Cert.Lib.RowBias Cert.Lib.RowSpread
open Cert.ReferenceIdeal Cert.ReferenceIdeal.ReadP

/-! ## The three dot products are matrix products -/

theorem plain1 : IsPlain (R := 65536) (K := 64) (N := 128) dot_S65536x64_S64x128_S65536x128_1_0_0_1_n_n :=
  ⟨rfl, rfl, rfl, rfl, rfl, rfl⟩
theorem plain2 : IsPlain (R := 65536) (K := 128) (N := 128) dot_S65536x128_S128x128_S65536x128_1_0_0_1_n_n :=
  ⟨rfl, rfl, rfl, rfl, rfl, rfl⟩
theorem plain3 : IsPlain (R := 65536) (K := 128) (N := 64) dot_S65536x128_S128x64_S65536x64_1_0_0_1_n_n :=
  ⟨rfl, rfl, rfl, rfl, rfl, rfl⟩

theorem dot1 (x : FVec Ideal S65536x64 .f32) (w : FVec Ideal S64x128 .f32) :
    Host.dotGeneral (F := Ideal) dot_S65536x64_S64x128_S65536x128_1_0_0_1_n_n none x w = prod x w :=
  dotGeneral_eq_prod plain1 none x w
theorem dot2 (x : FVec Ideal S65536x128 .f32) (w : FVec Ideal S128x128 .f32) :
    Host.dotGeneral (F := Ideal) dot_S65536x128_S128x128_S65536x128_1_0_0_1_n_n none x w = prod x w :=
  dotGeneral_eq_prod plain2 none x w
theorem dot3 (x : FVec Ideal S65536x128 .f32) (w : FVec Ideal S128x64 .f32) :
    Host.dotGeneral (F := Ideal) dot_S65536x128_S128x64_S65536x64_1_0_0_1_n_n none x w = prod x w :=
  dotGeneral_eq_prod plain3 none x w

/-! ## The bias, spread the reference's way and the kernel's way -/

/-- First layer: the clamped sum with the bias recast as a row is the reference's maximum of the sum with the bias
    spread over the matrix and the zero matrix. -/
theorem biasRelu1 (A : FVec Ideal S65536x128 .f32) (b : FVec Ideal S128 .f32) (h : S128.ShapeCasts S1x128) :
    addRowRelu A (shapeCast S1x128 b h)
      = maximumf (addf A (val_main_v45 (F := Ideal) b)) (val_main_call1_v0 (F := Ideal)) := by
  funext i
  obtain ⟨p, q, rfl⟩ : ∃ (p : Fin 65536) (q : Fin 128), i = ix2 p q := ⟨i 0, i 1, eq_ix2 i⟩
  rw [addRowRelu_apply, maximumf_apply, addf_apply, val_main_v45_apply, val_main_v44_apply, val_main_call1_v0_apply,
    val_main_call1_cst_apply, asRow_apply]
  have e : idx_main_v44 (idx_main_v45 (ix2 p q)) = ix1 q := funext fun a => Fin.ext (by match a with | ⟨0, _⟩ => rfl)
  rw [e]

/-- Second layer: the same. -/
theorem biasRelu2 (A : FVec Ideal S65536x128 .f32) (b : FVec Ideal S128 .f32) (h : S128.ShapeCasts S1x128) :
    addRowRelu A (shapeCast S1x128 b h)
      = maximumf (addf A (val_main_v63 (F := Ideal) b)) (val_main_call2_v0 (F := Ideal)) := by
  funext i
  obtain ⟨p, q, rfl⟩ : ∃ (p : Fin 65536) (q : Fin 128), i = ix2 p q := ⟨i 0, i 1, eq_ix2 i⟩
  rw [addRowRelu_apply, maximumf_apply, addf_apply, val_main_v63_apply, val_main_v62_apply, val_main_call2_v0_apply,
    val_main_call2_cst_apply, asRow_apply]
  have e : idx_main_v62 (idx_main_v63 (ix2 p q)) = ix1 q := funext fun a => Fin.ext (by match a with | ⟨0, _⟩ => rfl)
  rw [e]

/-- Third layer: no clamp. -/
theorem bias3 (A : FVec Ideal S65536x64 .f32) (b : FVec Ideal S64 .f32) (h : S64.ShapeCasts S1x64) :
    addRow A (shapeCast S1x64 b h)
      = addf A (val_main_v81 (F := Ideal) b) := by
  funext i
  obtain ⟨p, q, rfl⟩ : ∃ (p : Fin 65536) (q : Fin 64), i = ix2 p q := ⟨i 0, i 1, eq_ix2 i⟩
  rw [addRow_apply, addf_apply, val_main_v81_apply, val_main_v80_apply, asRow_apply]
  have e : idx_main_v80 (idx_main_v81 (ix2 p q)) = ix1 q := funext fun a => Fin.ext (by match a with | ⟨0, _⟩ => rfl)
  rw [e]

end Cert.RefGlue

end
-- ==== Proof.Chain.lean ====
/-
  The kernel program's buffers at each boundary between its host stretches and regions, as the reference's values.

  @main of the kernel program is twelve segments: three stretches of host operations, then per layer a region for the
  linear map, a stretch of host operations for the aggregation, and a region for the bias (with the clamp in the first
  two layers).  The contents of the buffers at each boundary are a fold from the launch memory.  Walking the
  boundaries in order, each buffer a later segment reads is shown to hold the reference's value of the operation it
  stands for, as a function of the eight argument arrays:
    the edge lists with self loops, and the normalisation, after the opening stretches;
    x·W₁ after region 0 (the sixteen row blocks of the product are the whole product);
    the aggregate of x·W₁ after the next stretch; max (aggregate + b₁, 0) after region 1;
    and so on through the second and third layers, the last without a clamp.
  A segment leaves alone every buffer it does not write, which carries the edge lists, the normalisation and the
  arguments not yet used across the regions and stretches in between.  The last fact is the result buffer after
  region 5: the reference's result as a function of the arguments.
-/
import proofs.«143135_j5463198401300_1_alg».proof.Proof.Gen.KernelIdeal.Frame
import proofs.«143135_j5463198401300_1_alg».proof.Proof.Lin0
import proofs.«143135_j5463198401300_1_alg».proof.Proof.Act1
import proofs.«143135_j5463198401300_1_alg».proof.Proof.Lin2
import proofs.«143135_j5463198401300_1_alg».proof.Proof.Act3
import proofs.«143135_j5463198401300_1_alg».proof.Proof.Lin4
import proofs.«143135_j5463198401300_1_alg».proof.Proof.Act5
import proofs.«143135_j5463198401300_1_alg».proof.Proof.Stretch
import proofs.«143135_j5463198401300_1_alg».proof.Proof.RefGlue

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo
open Idealize.ShloMosaic.RowBlockProduct Cert.Lib.RowBias Cert.KernelIdeal.Stretch

variable (m : (ℓ : Loc nD τ sig) → Buf (Elt Ideal) ℓ) (ρ : Dev nD → PrngReg) (c : Dev nD)

/-! ## The argument arrays as launched -/
abbrev a0 : (⟨S65536x64, .f32⟩ : BufTy).Contents (Elt Ideal) := m ((c : Thread nD τ).loc main_arg0)
abbrev a1 : (⟨S64x128, .f32⟩ : BufTy).Contents (Elt Ideal) := m ((c : Thread nD τ).loc main_arg1)
abbrev a2 : (⟨S128, .f32⟩ : BufTy).Contents (Elt Ideal) := m ((c : Thread nD τ).loc main_arg2)
abbrev a3 : (⟨S128x128, .f32⟩ : BufTy).Contents (Elt Ideal) := m ((c : Thread nD τ).loc main_arg3)
abbrev a4 : (⟨S128, .f32⟩ : BufTy).Contents (Elt Ideal) := m ((c : Thread nD τ).loc main_arg4)
abbrev a5 : (⟨S128x64, .f32⟩ : BufTy).Contents (Elt Ideal) := m ((c : Thread nD τ).loc main_arg5)
abbrev a6 : (⟨S64, .f32⟩ : BufTy).Contents (Elt Ideal) := m ((c : Thread nD τ).loc main_arg6)
abbrev a7 : (⟨S2x1048576, .i32⟩ : BufTy).Contents (Elt Ideal) := m ((c : Thread nD τ).loc main_arg7)

/-! ## After the opening stretches (region 0's entry) -/

theorem W2_v3 : W2 m ρ c (Proc.devRef .tc main_v3) = Cert.ReferenceIdeal.ReadP.val_main_v3 (F := Ideal) (a7 m c) :=
  (pre1_keep_v3 (W1 m ρ c)).trans (pre0_v3 (W0 m ρ c))
theorem W2_v6 : W2 m ρ c (Proc.devRef .tc main_v6) = Cert.ReferenceIdeal.ReadP.val_main_v6 (F := Ideal) (a7 m c) :=
  (pre1_keep_v6 (W1 m ρ c)).trans (pre0_v6 (W0 m ρ c))
theorem W2_v14 : W2 m ρ c (Proc.devRef .tc main_v14) = Cert.ReferenceIdeal.ReadP.val_main_v14 (F := Ideal) (a7 m c) :=
  pre1_v14 (W1 m ρ c) (a7 m c) (pre0_v12 (W0 m ρ c)) (pre0_v13 (W0 m ρ c)) (pre0_cst_2 (W0 m ρ c))
theorem W3_v3 : W3 m ρ c (Proc.devRef .tc main_v3) = Cert.ReferenceIdeal.ReadP.val_main_v3 (F := Ideal) (a7 m c) :=
  (pre2_keep_v3 (W2 m ρ c)).trans (W2_v3 m ρ c)
theorem W3_v6 : W3 m ρ c (Proc.devRef .tc main_v6) = Cert.ReferenceIdeal.ReadP.val_main_v6 (F := Ideal) (a7 m c) :=
  (pre2_keep_v6 (W2 m ρ c)).trans (W2_v6 m ρ c)
theorem W3_v29 : W3 m ρ c (Proc.devRef .tc main_v29) = Cert.ReferenceIdeal.ReadP.val_main_v29 (F := Ideal) (a7 m c) :=
  pre2_v29 (W2 m ρ c) (a7 m c) (W2_v14 m ρ c) (W2_v3 m ρ c) (W2_v6 m ρ c)
theorem W3_arg0 : W3 m ρ c (Proc.devRef .tc main_arg0) = (a0 m c) :=
  (pre2_keep_arg0 (W2 m ρ c)).trans ((pre1_keep_arg0 (W1 m ρ c)).trans (pre0_keep_arg0 (W0 m ρ c)))
theorem W3_arg1 : W3 m ρ c (Proc.devRef .tc main_arg1) = (a1 m c) :=
  (pre2_keep_arg1 (W2 m ρ c)).trans ((pre1_keep_arg1 (W1 m ρ c)).trans (pre0_keep_arg1 (W0 m ρ c)))
theorem W3_arg2 : W3 m ρ c (Proc.devRef .tc main_arg2) = (a2 m c) :=
  (pre2_keep_arg2 (W2 m ρ c)).trans ((pre1_keep_arg2 (W1 m ρ c)).trans (pre0_keep_arg2 (W0 m ρ c)))
theorem W3_arg3 : W3 m ρ c (Proc.devRef .tc main_arg3) = (a3 m c) :=
  (pre2_keep_arg3 (W2 m ρ c)).trans ((pre1_keep_arg3 (W1 m ρ c)).trans (pre0_keep_arg3 (W0 m ρ c)))
theorem W3_arg4 : W3 m ρ c (Proc.devRef .tc main_arg4) = (a4 m c) :=
  (pre2_keep_arg4 (W2 m ρ c)).trans ((pre1_keep_arg4 (W1 m ρ c)).trans (pre0_keep_arg4 (W0 m ρ c)))
theorem W3_arg5 : W3 m ρ c (Proc.devRef .tc main_arg5) = (a5 m c) :=
  (pre2_keep_arg5 (W2 m ρ c)).trans ((pre1_keep_arg5 (W1 m ρ c)).trans (pre0_keep_arg5 (W0 m ρ c)))
theorem W3_arg6 : W3 m ρ c (Proc.devRef .tc main_arg6) = (a6 m c) :=
  (pre2_keep_arg6 (W2 m ρ c)).trans ((pre1_keep_arg6 (W1 m ρ c)).trans (pre0_keep_arg6 (W0 m ρ c)))

/-! ## After region 0: the first layer's linear map -/

theorem W4_v30 : W4 m ρ c (Proc.devRef .tc main_v30) = Cert.ReferenceIdeal.ReadP.val_main_v30 (F := Ideal) (a0 m c) (a1 m c) := by
  refine (W4_arr m ρ c 2).trans ((Lin0.final (V3 m ρ) c).trans ?_)
  show prod (W3 m ρ c (Proc.devRef .tc main_arg0)) (W3 m ρ c (Proc.devRef .tc main_arg1)) = _
  rw [W3_arg0 m ρ c, W3_arg1 m ρ c]
  exact (Cert.RefGlue.dot1 _ _).symm
theorem W4_v3 : W4 m ρ c (Proc.devRef .tc main_v3) = Cert.ReferenceIdeal.ReadP.val_main_v3 (F := Ideal) (a7 m c) :=
  (W4_of_ne m ρ c main_v3 (by decide)).trans (W3_v3 m ρ c)
theorem W4_v6 : W4 m ρ c (Proc.devRef .tc main_v6) = Cert.ReferenceIdeal.ReadP.val_main_v6 (F := Ideal) (a7 m c) :=
  (W4_of_ne m ρ c main_v6 (by decide)).trans (W3_v6 m ρ c)
theorem W4_v29 : W4 m ρ c (Proc.devRef .tc main_v29) = Cert.ReferenceIdeal.ReadP.val_main_v29 (F := Ideal) (a7 m c) :=
  (W4_of_ne m ρ c main_v29 (by decide)).trans (W3_v29 m ρ c)
theorem W4_arg2 : W4 m ρ c (Proc.devRef .tc main_arg2) = (a2 m c) :=
  (W4_of_ne m ρ c main_arg2 (by decide)).trans (W3_arg2 m ρ c)
theorem W4_arg3 : W4 m ρ c (Proc.devRef .tc main_arg3) = (a3 m c) :=
  (W4_of_ne m ρ c main_arg3 (by decide)).trans (W3_arg3 m ρ c)
theorem W4_arg4 : W4 m ρ c (Proc.devRef .tc main_arg4) = (a4 m c) :=
  (W4_of_ne m ρ c main_arg4 (by decide)).trans (W3_arg4 m ρ c)
theorem W4_arg5 : W4 m ρ c (Proc.devRef .tc main_arg5) = (a5 m c) :=
  (W4_of_ne m ρ c main_arg5 (by decide)).trans (W3_arg5 m ρ c)
theorem W4_arg6 : W4 m ρ c (Proc.devRef .tc main_arg6) = (a6 m c) :=
  (W4_of_ne m ρ c main_arg6 (by decide)).trans (W3_arg6 m ρ c)

/-! ## After the first aggregation -/

theorem W5_v43 : W5 m ρ c (Proc.devRef .tc main_v43) = Cert.ReferenceIdeal.ReadP.val_main_v43 (F := Ideal) (a0 m c) (a1 m c) (a7 m c) :=
  s1_v43 (W4 m ρ c) (a0 m c) (a1 m c) (a7 m c) (W4_v30 m ρ c) (W4_v3 m ρ c) (W4_v6 m ρ c) (W4_v29 m ρ c)
theorem W5_v44 : W5 m ρ c (Proc.devRef .tc main_v44) = shapeCast S1x128 (a2 m c) shapeCasts_S128_S1x128 :=
  (s1_v44 (W4 m ρ c)).trans (by rw [W4_arg2 m ρ c])
theorem W5_v3 : W5 m ρ c (Proc.devRef .tc main_v3) = Cert.ReferenceIdeal.ReadP.val_main_v3 (F := Ideal) (a7 m c) :=
  (s1_keep_v3 (W4 m ρ c)).trans (W4_v3 m ρ c)
theorem W5_v6 : W5 m ρ c (Proc.devRef .tc main_v6) = Cert.ReferenceIdeal.ReadP.val_main_v6 (F := Ideal) (a7 m c) :=
  (s1_keep_v6 (W4 m ρ c)).trans (W4_v6 m ρ c)
theorem W5_v29 : W5 m ρ c (Proc.devRef .tc main_v29) = Cert.ReferenceIdeal.ReadP.val_main_v29 (F := Ideal) (a7 m c) :=
  (s1_keep_v29 (W4 m ρ c)).trans (W4_v29 m ρ c)
theorem W5_arg3 : W5 m ρ c (Proc.devRef .tc main_arg3) = (a3 m c) :=
  (s1_keep_arg3 (W4 m ρ c)).trans (W4_arg3 m ρ c)
theorem W5_arg4 : W5 m ρ c (Proc.devRef .tc main_arg4) = (a4 m c) :=
  (s1_keep_arg4 (W4 m ρ c)).trans (W4_arg4 m ρ c)
theorem W5_arg5 : W5 m ρ c (Proc.devRef .tc main_arg5) = (a5 m c) :=
  (s1_keep_arg5 (W4 m ρ c)).trans (W4_arg5 m ρ c)
theorem W5_arg6 : W5 m ρ c (Proc.devRef .tc main_arg6) = (a6 m c) :=
  (s1_keep_arg6 (W4 m ρ c)).trans (W4_arg6 m ρ c)

/-! ## After region 1: the first layer's bias and clamp -/

theorem W6_v45 : W6 m ρ c (Proc.devRef .tc main_v45) = Cert.ReferenceIdeal.ReadP.val_main_v47 (F := Ideal) (a0 m c) (a1 m c) (a2 m c) (a7 m c) := by
  refine (W6_arr m ρ c 2).trans ((Act1.final (V5 m ρ) c).trans ?_)
  show addRowRelu (W5 m ρ c (Proc.devRef .tc main_v43)) (W5 m ρ c (Proc.devRef .tc main_v44)) = _
  rw [W5_v43 m ρ c, W5_v44 m ρ c]
  exact Cert.RefGlue.biasRelu1 _ _ _
theorem W6_v3 : W6 m ρ c (Proc.devRef .tc main_v3) = Cert.ReferenceIdeal.ReadP.val_main_v3 (F := Ideal) (a7 m c) :=
  (W6_of_ne m ρ c main_v3 (by decide)).trans (W5_v3 m ρ c)
theorem W6_v6 : W6 m ρ c (Proc.devRef .tc main_v6) = Cert.ReferenceIdeal.ReadP.val_main_v6 (F := Ideal) (a7 m c) :=
  (W6_of_ne m ρ c main_v6 (by decide)).trans (W5_v6 m ρ c)
theorem W6_v29 : W6 m ρ c (Proc.devRef .tc main_v29) = Cert.ReferenceIdeal.ReadP.val_main_v29 (F := Ideal) (a7 m c) :=
  (W6_of_ne m ρ c main_v29 (by decide)).trans (W5_v29 m ρ c)
theorem W6_arg3 : W6 m ρ c (Proc.devRef .tc main_arg3) = (a3 m c) :=
  (W6_of_ne m ρ c main_arg3 (by decide)).trans (W5_arg3 m ρ c)
theorem W6_arg4 : W6 m ρ c (Proc.devRef .tc main_arg4) = (a4 m c) :=
  (W6_of_ne m ρ c main_arg4 (by decide)).trans (W5_arg4 m ρ c)
theorem W6_arg5 : W6 m ρ c (Proc.devRef .tc main_arg5) = (a5 m c) :=
  (W6_of_ne m ρ c main_arg5 (by decide)).trans (W5_arg5 m ρ c)
theorem W6_arg6 : W6 m ρ c (Proc.devRef .tc main_arg6) = (a6 m c) :=
  (W6_of_ne m ρ c main_arg6 (by decide)).trans (W5_arg6 m ρ c)

/-! ## After region 2: the second layer's linear map -/

theorem W7_v46 : W7 m ρ c (Proc.devRef .tc main_v46) = Cert.ReferenceIdeal.ReadP.val_main_v48 (F := Ideal) (a0 m c) (a1 m c) (a2 m c) (a3 m c) (a7 m c) := by
  refine (W7_arr m ρ c 2).trans ((Lin2.final (V6 m ρ) c).trans ?_)
  show prod (W6 m ρ c (Proc.devRef .tc main_v45)) (W6 m ρ c (Proc.devRef .tc main_arg3)) = _
  rw [W6_v45 m ρ c, W6_arg3 m ρ c]
  exact (Cert.RefGlue.dot2 _ _).symm
theorem W7_v3 : W7 m ρ c (Proc.devRef .tc main_v3) = Cert.ReferenceIdeal.ReadP.val_main_v3 (F := Ideal) (a7 m c) :=
  (W7_of_ne m ρ c main_v3 (by decide)).trans (W6_v3 m ρ c)
theorem W7_v6 : W7 m ρ c (Proc.devRef .tc main_v6) = Cert.ReferenceIdeal.ReadP.val_main_v6 (F := Ideal) (a7 m c) :=
  (W7_of_ne m ρ c main_v6 (by decide)).trans (W6_v6 m ρ c)
theorem W7_v29 : W7 m ρ c (Proc.devRef .tc main_v29) = Cert.ReferenceIdeal.ReadP.val_main_v29 (F := Ideal) (a7 m c) :=
  (W7_of_ne m ρ c main_v29 (by decide)).trans (W6_v29 m ρ c)
theorem W7_arg4 : W7 m ρ c (Proc.devRef .tc main_arg4) = (a4 m c) :=
  (W7_of_ne m ρ c main_arg4 (by decide)).trans (W6_arg4 m ρ c)
theorem W7_arg5 : W7 m ρ c (Proc.devRef .tc main_arg5) = (a5 m c) :=
  (W7_of_ne m ρ c main_arg5 (by decide)).trans (W6_arg5 m ρ c)
theorem W7_arg6 : W7 m ρ c (Proc.devRef .tc main_arg6) = (a6 m c) :=
  (W7_of_ne m ρ c main_arg6 (by decide)).trans (W6_arg6 m ρ c)

/-! ## After the second aggregation -/

theorem W8_v59 : W8 m ρ c (Proc.devRef .tc main_v59) = Cert.ReferenceIdeal.ReadP.val_main_v61 (F := Ideal) (a0 m c) (a1 m c) (a2 m c) (a3 m c) (a7 m c) :=
  s3_v59 (W7 m ρ c) (a0 m c) (a1 m c) (a2 m c) (a3 m c) (a7 m c) (W7_v46 m ρ c) (W7_v3 m ρ c) (W7_v6 m ρ c) (W7_v29 m ρ c)
theorem W8_v60 : W8 m ρ c (Proc.devRef .tc main_v60) = shapeCast S1x128 (a4 m c) shapeCasts_S128_S1x128 :=
  (s3_v60 (W7 m ρ c)).trans (by rw [W7_arg4 m ρ c])
theorem W8_v3 : W8 m ρ c (Proc.devRef .tc main_v3) = Cert.ReferenceIdeal.ReadP.val_main_v3 (F := Ideal) (a7 m c) :=
  (s3_keep_v3 (W7 m ρ c)).trans (W7_v3 m ρ c)
theorem W8_v6 : W8 m ρ c (Proc.devRef .tc main_v6) = Cert.ReferenceIdeal.ReadP.val_main_v6 (F := Ideal) (a7 m c) :=
  (s3_keep_v6 (W7 m ρ c)).trans (W7_v6 m ρ c)
theorem W8_v29 : W8 m ρ c (Proc.devRef .tc main_v29) = Cert.ReferenceIdeal.ReadP.val_main_v29 (F := Ideal) (a7 m c) :=
  (s3_keep_v29 (W7 m ρ c)).trans (W7_v29 m ρ c)
theorem W8_arg5 : W8 m ρ c (Proc.devRef .tc main_arg5) = (a5 m c) :=
  (s3_keep_arg5 (W7 m ρ c)).trans (W7_arg5 m ρ c)
theorem W8_arg6 : W8 m ρ c (Proc.devRef .tc main_arg6) = (a6 m c) :=
  (s3_keep_arg6 (W7 m ρ c)).trans (W7_arg6 m ρ c)

/-! ## After region 3: the second layer's bias and clamp -/

theorem W9_v61 : W9 m ρ c (Proc.devRef .tc main_v61) = Cert.ReferenceIdeal.ReadP.val_main_v65 (F := Ideal) (a0 m c) (a1 m c) (a2 m c) (a3 m c) (a4 m c) (a7 m c) := by
  refine (W9_arr m ρ c 2).trans ((Act3.final (V8 m ρ) c).trans ?_)
  show addRowRelu (W8 m ρ c (Proc.devRef .tc main_v59)) (W8 m ρ c (Proc.devRef .tc main_v60)) = _
  rw [W8_v59 m ρ c, W8_v60 m ρ c]
  exact Cert.RefGlue.biasRelu2 _ _ _
theorem W9_v3 : W9 m ρ c (Proc.devRef .tc main_v3) = Cert.ReferenceIdeal.ReadP.val_main_v3 (F := Ideal) (a7 m c) :=
  (W9_of_ne m ρ c main_v3 (by decide)).trans (W8_v3 m ρ c)
theorem W9_v6 : W9 m ρ c (Proc.devRef .tc main_v6) = Cert.ReferenceIdeal.ReadP.val_main_v6 (F := Ideal) (a7 m c) :=
  (W9_of_ne m ρ c main_v6 (by decide)).trans (W8_v6 m ρ c)
theorem W9_v29 : W9 m ρ c (Proc.devRef .tc main_v29) = Cert.ReferenceIdeal.ReadP.val_main_v29 (F := Ideal) (a7 m c) :=
  (W9_of_ne m ρ c main_v29 (by decide)).trans (W8_v29 m ρ c)
theorem W9_arg5 : W9 m ρ c (Proc.devRef .tc main_arg5) = (a5 m c) :=
  (W9_of_ne m ρ c main_arg5 (by decide)).trans (W8_arg5 m ρ c)
theorem W9_arg6 : W9 m ρ c (Proc.devRef .tc main_arg6) = (a6 m c) :=
  (W9_of_ne m ρ c main_arg6 (by decide)).trans (W8_arg6 m ρ c)

/-! ## After region 4: the third layer's linear map -/

theorem W10_v62 : W10 m ρ c (Proc.devRef .tc main_v62) = Cert.ReferenceIdeal.ReadP.val_main_v66 (F := Ideal) (a0 m c) (a1 m c) (a2 m c) (a3 m c) (a4 m c) (a5 m c) (a7 m c) := by
  refine (W10_arr m ρ c 2).trans ((Lin4.final (V9 m ρ) c).trans ?_)
  show prod (W9 m ρ c (Proc.devRef .tc main_v61)) (W9 m ρ c (Proc.devRef .tc main_arg5)) = _
  rw [W9_v61 m ρ c, W9_arg5 m ρ c]
  exact (Cert.RefGlue.dot3 _ _).symm
theorem W10_v3 : W10 m ρ c (Proc.devRef .tc main_v3) = Cert.ReferenceIdeal.ReadP.val_main_v3 (F := Ideal) (a7 m c) :=
  (W10_of_ne m ρ c main_v3 (by decide)).trans (W9_v3 m ρ c)
theorem W10_v6 : W10 m ρ c (Proc.devRef .tc main_v6) = Cert.ReferenceIdeal.ReadP.val_main_v6 (F := Ideal) (a7 m c) :=
  (W10_of_ne m ρ c main_v6 (by decide)).trans (W9_v6 m ρ c)
theorem W10_v29 : W10 m ρ c (Proc.devRef .tc main_v29) = Cert.ReferenceIdeal.ReadP.val_main_v29 (F := Ideal) (a7 m c) :=
  (W10_of_ne m ρ c main_v29 (by decide)).trans (W9_v29 m ρ c)
theorem W10_arg6 : W10 m ρ c (Proc.devRef .tc main_arg6) = (a6 m c) :=
  (W10_of_ne m ρ c main_arg6 (by decide)).trans (W9_arg6 m ρ c)

/-! ## After the third aggregation -/

theorem W11_v75 : W11 m ρ c (Proc.devRef .tc main_v75) = Cert.ReferenceIdeal.ReadP.val_main_v79 (F := Ideal) (a0 m c) (a1 m c) (a2 m c) (a3 m c) (a4 m c) (a5 m c) (a7 m c) :=
  s5_v75 (W10 m ρ c) (a0 m c) (a1 m c) (a2 m c) (a3 m c) (a4 m c) (a5 m c) (a7 m c) (W10_v62 m ρ c) (W10_v3 m ρ c) (W10_v6 m ρ c) (W10_v29 m ρ c)
theorem W11_v76 : W11 m ρ c (Proc.devRef .tc main_v76) = shapeCast S1x64 (a6 m c) shapeCasts_S64_S1x64 :=
  (s5_v76 (W10 m ρ c)).trans (by rw [W10_arg6 m ρ c])

/-! ## After region 5: the third layer's bias — the result -/

/-- The result buffer at the end of @main holds the reference's result as a function of the argument arrays. -/
theorem result : W12 m ρ c (Proc.devRef .tc main_v77)
    = Cert.ReferenceIdeal.ReadP.val_main_v82 (F := Ideal) (a0 m c) (a1 m c) (a2 m c) (a3 m c) (a4 m c) (a5 m c) (a6 m c) (a7 m c) := by
  refine (W12_arr m ρ c 2).trans ((Act5.final (V11 m ρ) c).trans ?_)
  show addRow (W11 m ρ c (Proc.devRef .tc main_v75)) (W11 m ρ c (Proc.devRef .tc main_v76)) = _
  rw [W11_v75 m ρ c, W11_v76 m ρ c]
  exact Cert.RefGlue.bias3 _ _ _

end Cert.KernelIdeal.Chain

end
-- ==== Proof.lean ====
/-
  The certificate of a three-layer graph convolution: the kernel program against its reference, over the extended
  reals.

  Both programs compute, from node features x, three weight matrices and biases, and an edge list,
      out = Â (relu (Â (relu (Â (x W₁) + b₁)) W₂ + b₂) W₃) + b₃,
  where Â h gathers the rows of h at the edges' sources (self loops appended), scales each by the symmetric degree
  normalisation, and sums them at the destinations.  The reference does all of it with host operations.  The kernel
  program keeps the host operations for the edge lists, the normalisation and the three aggregations, and replaces each
  dense product h W by a region that multiplies sixteen row blocks of h by W, and each bias (and clamp) by a region that
  adds the bias row to sixteen row blocks of the aggregate (and takes the maximum with zero).

  At the extended reals a change of float format is the identity, so a row block of h W is the same rows of the whole
  product, term for term, and a row block of the biased aggregate is the same rows of the whole one: no law of
  arithmetic is used and no finiteness is needed.  The host operations in between are the same operations on both
  sides, applied to operands already shown equal.  So the kernel program's result buffer holds the reference's result
  as a function of the arguments (Chain.lean), and the two runs end with equal results when started from memories
  that agree on the arguments.

  The frames: the kernel program's two frames are the generated ones; the reference has no kernel, and its frame is its
  run with the result dropped.  The ideal pass rewrote nothing, so the idealization claim is empty.
-/
import proofs.«143135_j5463198401300_1_alg».proof.Defs
import proofs.«143135_j5463198401300_1_alg».proof.Proof.Gen.Kernel
import proofs.«143135_j5463198401300_1_alg».proof.Proof.Gen.Kernel.Frame
import proofs.«143135_j5463198401300_1_alg».proof.Proof.Gen.KernelIdeal
import proofs.«143135_j5463198401300_1_alg».proof.Proof.Gen.KernelIdeal.Frame
import proofs.«143135_j5463198401300_1_alg».proof.Proof.Gen.ReferenceIdeal
import proofs.«143135_j5463198401300_1_alg».proof.Proof.Gen.Pre_finite_inputs
import proofs.«143135_j5463198401300_1_alg».proof.Proof.KernelRun
import proofs.«143135_j5463198401300_1_alg».proof.Proof.Chain
import proofs.«143135_j5463198401300_1_alg».proof.Proof.RefRead
import Idealize.ShloMosaic.Adequacy
import Idealize.ShloMosaic.Init

noncomputable section

namespace Cert.Proof

open Idealize.ShloMosaic Idealize.SL.Sem

/-- The kernel program as printed runs and leaves its arguments alone. -/
theorem frame_kernel : @Cert.frame_Kernel Cert.Kernel.Gen.facts Cert.Pre_finite_inputs.Gen.facts :=
  fun m ρ _ => Cert.Kernel.Gen.frame m ρ

/-- So does its idealization. -/
theorem frame_kernelIdeal : @Cert.frame_KernelIdeal Cert.KernelIdeal.Gen.facts Cert.Pre_finite_inputs.Gen.facts :=
  fun m ρ _ => Cert.KernelIdeal.Gen.frame m ρ

/-- The reference's frame is its run with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.ValueP.run (F := Ideal) m ρ)

/-- From memories that agree on the arguments both programs end with the reference's result of those arguments. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.ReferenceIdeal.ReadP.val_main_v82 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Chain.result m ρ c), (h c).2⟩)
      (Cert.KernelIdeal.ResultRun.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v82_eq]
    obtain ⟨e0, e1, e2, e3, e4, e5, e6, e7⟩ := hagree c
    rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
